-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_7" .f32 0x3E124925#32 ((1 / 7 : ℝ) : EReal)
  ∧ IdealRules.named_const.Statement Cert.KernelIdeal.κ "inv_7" .f32 0x3E124925#32 ((1 / 7 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S32000x4096 : Shape := ⟨2, ![32000, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S32000x4096 : S_.BroadcastsInDim S32000x4096 (![] : Fin 0 → Fin S32000x4096.rank)
  reducesTo_S32000x4096_S_d0_1 : S32000x4096.ReducesTo [0, 1] S_

variable [Facts]

def fn {F : FTy → Type} [FloatOps F] (main_arg0 : FVec F S2x2048x4096 .f32) (main_arg1 : FVec F S32000x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  main_v8
-- ==== Kernel.lean ====
abbrev S2x2048x4096 : Shape := ⟨3, ![2, 2048, 4096]⟩
abbrev S32000x4096 : Shape := ⟨2, ![32000, 4096]⟩
abbrev S4096x4096 : Shape := ⟨2, ![4096, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S4096x32000 : Shape := ⟨2, ![4096, 32000]⟩
abbrev S512x4096 : Shape := ⟨2, ![512, 4096]⟩
abbrev S1280x4096 : Shape := ⟨2, ![1280, 4096]⟩
abbrev S512x1280 : Shape := ⟨2, ![512, 1280]⟩
abbrev S2x2048x32000 : Shape := ⟨3, ![2, 2048, 32000]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x4096, .f32⟩
  | .hbm, ⟨1, _⟩ => ⟨S32000x4096, .f32⟩
  | .hbm, ⟨2, _⟩ => ⟨S4096x4096, .f32⟩
  | .hbm, ⟨3, _⟩ => ⟨S32000x4096, .bf16⟩
  | .hbm, ⟨4, _⟩ => ⟨S4096x4096, .bf16⟩
  | .hbm, ⟨5, _⟩ => ⟨S4096x32000, .f32⟩
  | .hbm, ⟨6, _⟩ => ⟨S2x2048x32000, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S512x4096, .bf16⟩
  | .local _ .vmem, ⟨9, _⟩ => ⟨S512x4096, .bf16⟩
  | .local _ .vmem, ⟨10, _⟩ => ⟨S1280x4096, .bf16⟩
  | .local _ .vmem, ⟨11, _⟩ => ⟨S1280x4096, .bf16⟩
  | .local _ .vmem, ⟨12, _⟩ => ⟨S512x1280, .f32⟩
  | .local _ .vmem, ⟨13, _⟩ => ⟨S512x1280, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![25, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1280x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x2048x4096_S4096x4096 : S2x2048x4096.ShapeCasts S4096x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S256x4096_S256x4096 : S256x4096.ShapeCasts S256x4096
  reduces_S256x4096_S4096 : S256x4096.Reduces [0] S4096
  shapeCasts_S4096_S1x4096 : S4096.ShapeCasts S1x4096
  reduces_S1x4096_S1 : S1x4096.Reduces [1] S1
  shapeCasts_S1_S1x1 : S1.ShapeCasts S1x1
  broadcasts_S1x1_S1x4096 : S1x1.Broadcasts S1x4096
  natLt_1_32 : 1 < 32
  broadcasts_S1x4096_S256x4096 : S1x4096.Broadcasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1280x4096_S1280x4096_0_0 : ∀ a, (![0, 0] : Fin 2 → Nat) a + S1280x4096.size a ≤ S1280x4096.size a
  h_S1280x4096 : 0 < S1280x4096.numel
  shapeCasts_S1280x4096_S1280x4096 : S1280x4096.ShapeCasts S1280x4096
  inb_S512x1280_S512x1280_0_0 : ∀ a, (![0, 0] : Fin 2 → Nat) a + S512x1280.size a ≤ S512x1280.size a
  h_S512x1280 : 0 < S512x1280.numel
  shapeCasts_S4096x32000_S2x2048x32000 : S4096x32000.ShapeCasts S2x2048x32000
  dot_S512x4096_S1280x4096_S512x1280_1_1_0_0_n_n_wf : DotDims.WF S512x4096 S1280x4096 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S32000x4096.size a
  hwx0_0 : ∀ i : grid0.Coords, EltTy.bits .f32 = 32 ∨ (Rect.block (s := S32000x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32000x4096.size a
  hwx0_1 : ∀ i : grid0.Coords, EltTy.bits .bf16 = 32 ∨ (Rect.block (s := S32000x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x4096.size a ≤ S32000x4096.size a
  hwx2_1 : ∀ i : grid2.Coords, EltTy.bits .bf16 = 32 ∨ (Rect.block (s := S32000x4096) S1280x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1280.size a ≤ S4096x32000.size a
  hwx2_2 : ∀ i : grid2.Coords, EltTy.bits .f32 = 32 ∨ (Rect.block (s := S4096x32000) S512x1280.size (cc2_transform_2 i) (hinb2_2 i)).WholeWords (EltTy.packing .f32)

variable [Facts₀]

def dot_S512x4096_S1280x4096_S512x1280_1_1_0_0_n_n : DotDims S512x4096 S1280x4096 S512x1280 where
  lhsContracting := [1]
  rhsContracting := [1]
  lhsNonContracting := [0]
  rhsNonContracting := [0]
  lhsBatch := []
  rhsBatch := []
  wf := dot_S512x4096_S1280x4096_S512x1280_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1280x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1280.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x4096 : Shape := ⟨3, ![2, 2048, 4096]⟩
abbrev S32000x4096 : Shape := ⟨2, ![32000, 4096]⟩
abbrev S_ : Shape := ⟨0, ![]⟩
abbrev S32000 : Shape := ⟨1, ![32000]⟩
abbrev S32000x1 : Shape := ⟨2, ![32000, 1]⟩
abbrev S4096x32000 : Shape := ⟨2, ![4096, 32000]⟩
abbrev S4096x4096 : Shape := ⟨2, ![4096, 4096]⟩
abbrev S16x256x4096 : Shape := ⟨3, ![16, 256, 4096]⟩
abbrev S16 : Shape := ⟨1, ![16]⟩
abbrev S16x4096 : Shape := ⟨2, ![16, 4096]⟩
abbrev S13 : Shape := ⟨1, ![13]⟩
abbrev S16x1 : Shape := ⟨2, ![16, 1]⟩
abbrev S1x13 : Shape := ⟨2, ![1, 13]⟩
abbrev S16x13 : Shape := ⟨2, ![16, 13]⟩
abbrev S16x4096x1 : Shape := ⟨3, ![16, 4096, 1]⟩
abbrev S16x1x13 : Shape := ⟨3, ![16, 1, 13]⟩
abbrev S16x4096x13 : Shape := ⟨3, ![16, 4096, 13]⟩
abbrev S16x1x4096 : Shape := ⟨3, ![16, 1, 4096]⟩
abbrev S16x256x32000 : Shape := ⟨3, ![16, 256, 32000]⟩
abbrev S2x2048x32000 : Shape := ⟨3, ![2, 2048, 32000]⟩

abbrev nBuf : Space → Nat
  | .hbm => 96
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S32000x4096, .f32⟩
  | .hbm, ⟨2, _⟩ => ⟨S32000x4096, .f32⟩
  | .hbm, ⟨3, _⟩ => ⟨S_, .f32⟩
  | .hbm, ⟨4, _⟩ => ⟨S32000, .f32⟩
  | .hbm, ⟨5, _⟩ => ⟨S32000x1, .f32⟩
  | .hbm, ⟨6, _⟩ => ⟨S_, .f32⟩
  | .hbm, ⟨7, _⟩ => ⟨S32000x1, .f32⟩
  | .hbm, ⟨8, _⟩ => ⟨S32000x1, .f32⟩
  | .hbm, ⟨9, _⟩ => ⟨S32000x1, .f32⟩
  | .hbm, ⟨10, _⟩ => ⟨S_, .f32⟩
  | .hbm, ⟨11, _⟩ => ⟨S_, .f32⟩
  | .hbm, ⟨12, _⟩ => ⟨S32000x1, .f32⟩
  | .hbm, ⟨13, _⟩ => ⟨S32000x1, .f32⟩
  | .hbm, ⟨14, _⟩ => ⟨S32000x4096, .f32⟩
  | .hbm, ⟨15, _⟩ => ⟨S32000x4096, .f32⟩
  | .hbm, ⟨16, _⟩ => ⟨S32000x4096, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S32000x4096, .f32⟩
  | .hbm, ⟨21, _⟩ => ⟨S32000x4096, .f32⟩
  | .hbm, ⟨22, _⟩ => ⟨S_, .f32⟩
  | .hbm, ⟨23, _⟩ => ⟨S32000x4096, .f32⟩
  | .hbm, ⟨24, _⟩ => ⟨S32000x4096, .f32⟩
  | .hbm, ⟨25, _⟩ => ⟨S32000x4096, .f32⟩
  | .hbm, ⟨26, _⟩ => ⟨S32000x4096, .f32⟩
  | .hbm, ⟨27, _⟩ => ⟨S4096x32000, .f32⟩
  | .hbm, ⟨28, _⟩ => ⟨S4096x4096, .f32⟩
  | .hbm, ⟨29, _⟩ => ⟨S_, .i32⟩
  | .hbm, ⟨30, _⟩ => ⟨S_, .f32⟩
  | .hbm, ⟨31, _⟩ => ⟨S4096x4096, .f32⟩
  | .hbm, ⟨32, _⟩ => ⟨S16x256x4096, .f32⟩
  | .hbm, ⟨33, _⟩ => ⟨S16x256x4096, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16x4096, .f32⟩
  | .hbm, ⟨38, _⟩ => ⟨S13, .i32⟩
  | .hbm, ⟨39, _⟩ => ⟨S16x1, .f32⟩
  | .hbm, ⟨40, _⟩ => ⟨S_, .i32⟩
  | .hbm, ⟨41, _⟩ => ⟨S13, .i32⟩
  | .hbm, ⟨42, _⟩ => ⟨S13, .i32⟩
  | .hbm, ⟨43, _⟩ => ⟨S13, .f32⟩
  | .hbm, ⟨44, _⟩ => ⟨S_, .f32⟩
  | .hbm, ⟨45, _⟩ => ⟨S13, .f32⟩
  | .hbm, ⟨46, _⟩ => ⟨S13, .f32⟩
  | .hbm, ⟨47, _⟩ => ⟨S13, .f32⟩
  | .hbm, ⟨48, _⟩ => ⟨S1x13, .f32⟩
  | .hbm, ⟨49, _⟩ => ⟨S16x13, .f32⟩
  | .hbm, ⟨50, _⟩ => ⟨S16x13, .f32⟩
  | .hbm, ⟨51, _⟩ => ⟨S16x13, .f32⟩
  | .hbm, ⟨52, _⟩ => ⟨S16x4096x1, .f32⟩
  | .hbm, ⟨53, _⟩ => ⟨S16x1x13, .f32⟩
  | .hbm, ⟨54, _⟩ => ⟨S16x4096x13, .f32⟩
  | .hbm, ⟨55, _⟩ => ⟨S16x4096x13, .f32⟩
  | .hbm, ⟨56, _⟩ => ⟨S16x4096x13, .i1⟩
  | .hbm, ⟨57, _⟩ => ⟨S16x4096x13, .i32⟩
  | .hbm, ⟨58, _⟩ => ⟨S_, .i32⟩
  | .hbm, ⟨59, _⟩ => ⟨S16x4096, .i32⟩
  | .hbm, ⟨60, _⟩ => ⟨S16x1, .f32⟩
  | .hbm, ⟨61, _⟩ => ⟨S_, .i32⟩
  | .hbm, ⟨62, _⟩ => ⟨S16x4096, .i32⟩
  | .hbm, ⟨63, _⟩ => ⟨S16x4096, .i32⟩
  | .hbm, ⟨64, _⟩ => ⟨S16x4096, .f32⟩
  | .hbm, ⟨65, _⟩ => ⟨S_, .f32⟩
  | .hbm, ⟨66, _⟩ => ⟨S16x4096, .f32⟩
  | .hbm, ⟨67, _⟩ => ⟨S16x4096, .f32⟩
  | .hbm, ⟨68, _⟩ => ⟨S16x4096, .f32⟩
  | .hbm, ⟨69, _⟩ => ⟨S16x4096, .f32⟩
  | .hbm, ⟨70, _⟩ => ⟨S16x4096, .f32⟩
  | .hbm, ⟨71, _⟩ => ⟨S_, .f32⟩
  | .hbm, ⟨72, _⟩ => ⟨S16x4096, .f32⟩
  | .hbm, ⟨73, _⟩ => ⟨S16x4096, .f32⟩
  | .hbm, ⟨74, _⟩ => ⟨S16x1x4096, .f32⟩
  | .hbm, ⟨75, _⟩ => ⟨S16x1x4096, .f32⟩
  | .hbm, ⟨76, _⟩ => ⟨S_, .f32⟩
  | .hbm, ⟨77, _⟩ => ⟨S_, .f32⟩
  | .hbm, ⟨78, _⟩ => ⟨S16x1x4096, .f32⟩
  | .hbm, ⟨79, _⟩ => ⟨S16x1x4096, .f32⟩
  | .hbm, ⟨80, _⟩ => ⟨S16x256x4096, .f32⟩
  | .hbm, ⟨81, _⟩ => ⟨S16x256x4096, .f32⟩
  | .hbm, ⟨82, _⟩ => ⟨S16x256x4096, .f32⟩
  | .hbm, ⟨83, _⟩ => ⟨S_, .i32⟩
  | .hbm, ⟨84, _⟩ => ⟨S_, .i32⟩
  | .hbm, ⟨85, _⟩ => ⟨S_, .f32⟩
  | .hbm, ⟨86, _⟩ => ⟨S16x256x4096, .f32⟩
  | .hbm, ⟨87, _⟩ => ⟨S16x256x4096, .f32⟩
  | .hbm, ⟨88, _⟩ => ⟨S_, .f32⟩
  | .hbm, ⟨89, _⟩ => ⟨S16x256x4096, .f32⟩
  | .hbm, ⟨90, _⟩ => ⟨S16x256x4096, .f32⟩
  | .hbm, ⟨91, _⟩ => ⟨S16x256x4096, .f32⟩
  | .hbm, ⟨92, _⟩ => ⟨S16x256x4096, .f32⟩
  | .hbm, ⟨93, _⟩ => ⟨S16x256x32000, .f32⟩
  | .hbm, ⟨94, _⟩ => ⟨S4096x32000, .f32⟩
  | .hbm, ⟨95, _⟩ => ⟨S2x2048x32000, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_2 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_call3_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_call4_v0 : Ref sig .tc := ⟨.hbm, 77, rfl⟩
abbrev main_call4_v1 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_c_14 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩

abbrev nD : Nat := 1
abbrev τ : Topo := Topo.v7x

variable {F : FTy → Type} [FloatOps F]

class Facts₀ : Prop where
  reducesTo_S32000x4096_S32000_d1 : S32000x4096.ReducesTo [1] S32000
  h_S_ : 0 < S_.numel
  bcast_S32000_S32000x1_0 : S32000.BroadcastsInDim S32000x1 (![0] : Fin 1 → Fin S32000x1.rank)
  bcast_S_S32000x1 : S_.BroadcastsInDim S32000x1 (![] : Fin 0 → Fin S32000x1.rank)
  bcast_S32000x1_S32000x4096_0_1 : S32000x1.BroadcastsInDim S32000x4096 (![0, 1] : Fin 2 → Fin S32000x4096.rank)
  bcast_S_S32000x4096 : S_.BroadcastsInDim S32000x4096 (![] : Fin 0 → Fin S32000x4096.rank)
  transposes_S32000x4096_S4096x32000_1_0 : S32000x4096.Transposes [1, 0] S4096x32000
  shapeCasts_S2x2048x4096_S4096x4096 : S2x2048x4096.ShapeCasts S4096x4096
  pads_S4096x4096_S4096x4096_000_000 : S4096x4096.Pads (![0, 0] : Fin 2 → Nat) ![0, 0] ![0, 0] S4096x4096
  shapeCasts_S4096x4096_S16x256x4096 : S4096x4096.ShapeCasts S16x256x4096
  reducesTo_S16x256x4096_S16_d1_2 : S16x256x4096.ReducesTo [1, 2] S16
  reducesTo_S16x256x4096_S16x4096_d1 : S16x256x4096.ReducesTo [1] S16x4096
  bcast_S16_S16x1_0 : S16.BroadcastsInDim S16x1 (![0] : Fin 1 → Fin S16x1.rank)
  bcast_S_S13 : S_.BroadcastsInDim S13 (![] : Fin 0 → Fin S13.rank)
  bcast_S13_S1x13_1 : S13.BroadcastsInDim S1x13 (![1] : Fin 1 → Fin S1x13.rank)
  bcast_S16x1_S16x13_0_1 : S16x1.BroadcastsInDim S16x13 (![0, 1] : Fin 2 → Fin S16x13.rank)
  bcast_S1x13_S16x13_0_1 : S1x13.BroadcastsInDim S16x13 (![0, 1] : Fin 2 → Fin S16x13.rank)
  bcast_S16x4096_S16x4096x1_0_1 : S16x4096.BroadcastsInDim S16x4096x1 (![0, 1] : Fin 2 → Fin S16x4096x1.rank)
  bcast_S16x13_S16x1x13_0_2 : S16x13.BroadcastsInDim S16x1x13 (![0, 2] : Fin 2 → Fin S16x1x13.rank)
  bcast_S16x4096x1_S16x4096x13_0_1_2 : S16x4096x1.BroadcastsInDim S16x4096x13 (![0, 1, 2] : Fin 3 → Fin S16x4096x13.rank)
  bcast_S16x1x13_S16x4096x13_0_1_2 : S16x1x13.BroadcastsInDim S16x4096x13 (![0, 1, 2] : Fin 3 → Fin S16x4096x13.rank)
  natLt_1_32 : 1 < 32
  reducesTo_S16x4096x13_S16x4096_d2 : S16x4096x13.ReducesTo [2] S16x4096
  bcast_S_S16x4096 : S_.BroadcastsInDim S16x4096 (![] : Fin 0 → Fin S16x4096.rank)
  bcast_S16x1_S16x4096_0_1 : S16x1.BroadcastsInDim S16x4096 (![0, 1] : Fin 2 → Fin S16x4096.rank)
  bcast_S16x4096_S16x1x4096_0_2 : S16x4096.BroadcastsInDim S16x1x4096 (![0, 2] : Fin 2 → Fin S16x1x4096.rank)
  bcast_S_S16x1x4096 : S_.BroadcastsInDim S16x1x4096 (![] : Fin 0 → Fin S16x1x4096.rank)
  bcast_S16x1x4096_S16x256x4096_0_1_2 : S16x1x4096.BroadcastsInDim S16x256x4096 (![0, 1, 2] : Fin 3 → Fin S16x256x4096.rank)
  bcast_S_S16x256x4096 : S_.BroadcastsInDim S16x256x4096 (![] : Fin 0 → Fin S16x256x4096.rank)
  shapeCasts_S16x256x32000_S4096x32000 : S16x256x32000.ShapeCasts S4096x32000
  shapeCasts_S4096x32000_S2x2048x32000 : S4096x32000.ShapeCasts S2x2048x32000
  dot_S16x256x4096_S4096x32000_S16x256x32000_2_0_01_1_n_n_wf : DotDims.WF S16x256x4096 S4096x32000 S16x256x32000 [2] [0] [0, 1] [1] [] []

variable [Facts₀]

def dot_S16x256x4096_S4096x32000_S16x256x32000_2_0_01_1_n_n : DotDims S16x256x4096 S4096x32000 S16x256x32000 where
  lhsContracting := [2]
  rhsContracting := [0]
  lhsNonContracting := [0, 1]
  rhsNonContracting := [1]
  lhsBatch := []
  rhsBatch := []
  wf := dot_S16x256x4096_S4096x32000_S16x256x32000_2_0_01_1_n_n_wf

class Facts : Prop extends Facts₀ where

variable [Facts]
-- ==== Proof.Spec.lean ====
/-
  What the program computes, as functions of its two argument arrays over the extended reals.

  A value x is quantised against a positive step s to  clip(round-half-even(x / s), -8, 7) · s .
  The step of a weight row is  max(ε, |rowmax · 1/7|)  with rowmax the largest magnitude in the row.
  For the activations the 4096 token rows fall into 16 chunks of 256. Per chunk and channel h:
  cmax is the largest magnitude of channel h inside the chunk, tmax the largest cmax of the chunk,
  b the number of the thirteen thresholds tmax·2^-13 … tmax·2^-1 that cmax strictly exceeds, and the
  step is  max(ε, |tmax · 2^(b-13) · 1/7|).  The result is the product of the quantised activations
  with the transpose of the quantised weight, one sum over the 4096 channels per entry.
-/
import Idealize.ShloMosaic.PureOps.Ideal
import Idealize.ShloMosaic.Lib.ValueIdx

noncomputable section

namespace Cert.Quant

open Idealize.ShloMosaic Idealize.ShloMosaic.ValueIdx

/-- weight: output channels by hidden channels -/
abbrev ShW : Shape := ⟨2, ![32000, 4096]⟩
/-- activations: token rows by hidden channels -/
abbrev ShX : Shape := ⟨2, ![4096, 4096]⟩
/-- logits: token rows by output channels -/
abbrev ShL : Shape := ⟨2, ![4096, 32000]⟩
/-- the activations as the program receives them: batch, position, hidden channel -/
abbrev ShIn : Shape := ⟨3, ![2, 2048, 4096]⟩
/-- the logits as the program returns them -/
abbrev ShOut : Shape := ⟨3, ![2, 2048, 32000]⟩

/-- the value every maximum starts from (the word of minus infinity) -/
def bot : EReal := Ideal.ofBits .f32 0xFF800000#32
/-- the smallest step allowed (the word of 1e-9) -/
def eps : EReal := Ideal.ofBits .f32 0x3089705F#32
/-- the lower clip, the integer -8 -/
def lo : EReal := (((4294967288#32 : BitVec 32).toInt : ℝ) : EReal)
/-- the upper clip, the integer 7 -/
def hi : EReal := (((7#32 : BitVec 32).toInt : ℝ) : EReal)
/-- one seventh, exactly -/
def inv7 : EReal := ((1 / 7 : ℝ) : EReal)

/-- magnitude -/
def absE (x : EReal) : EReal := max x (-x)
/-- the step made from a scale: its magnitude, kept at or above ε -/
def step (scale : EReal) : EReal := max eps (absE scale)
/-- quantise x against the step s and scale back -/
def qd (x s : EReal) : EReal :=
  min hi (max lo (Ideal.liftRound Ideal.roundHalfEven (Ideal.div x s))) * s

/-! ## The weight, row by row -/

/-- the largest magnitude in row v of the weight -/
def rowMax (W : ShW.Idx → EReal) (v : Fin 32000) : EReal :=
  (Finset.univ : Finset (Fin 4096)).fold max bot (fun h => absE (W (ix2 v h)))

/-- the quantised weight -/
def Wq (W : ShW.Idx → EReal) : ShW.Idx → EReal :=
  fun i => qd (W i) (step (rowMax W (i 0) * inv7))

/-! ## The activations, chunk by chunk -/

/-- row r of chunk c among the 4096 token rows -/
def tokOf (c : Fin 16) (r : Fin 256) : Fin 4096 := ⟨c.val * 256 + r.val, by omega⟩
/-- the chunk a token row lies in -/
def chunkOf (t : Fin 4096) : Fin 16 := ⟨t.val / 256, by omega⟩

/-- the largest magnitude of channel h inside chunk c -/
def colMax (X : ShX.Idx → EReal) (c : Fin 16) (h : Fin 4096) : EReal :=
  (Finset.univ : Finset (Fin 256)).fold max bot (fun r => absE (X (ix2 (tokOf c r) h)))

/-- the largest magnitude inside chunk c -/
def chunkMax (X : ShX.Idx → EReal) (c : Fin 16) : EReal :=
  (Finset.univ : Finset (Fin 4096)).fold max bot (fun h => colMax X c h)

/-- the words of the thirteen factors 2^-13, 2^-12, …, 2^-1 -/
def dyWords : List (BitVec 32) :=
  [0x39000000#32, 0x39800000#32, 0x3A000000#32, 0x3A800000#32, 0x3B000000#32, 0x3B800000#32, 0x3C000000#32,
   0x3C800000#32, 0x3D000000#32, 0x3D800000#32, 0x3E000000#32, 0x3E800000#32, 0x3F000000#32]

/-- how many of the thirteen thresholds  tm · 2^-13 … tm · 2^-1  the value cm strictly exceeds, as a 32-bit count -/
def bucket (cm tm : EReal) : BitVec 32 :=
  dyWords.foldl (fun acc w => acc + (Ideal.cmp .ogt cm (tm * Ideal.ofBits .f32 w)).setWidth 32) 0#32

/-- the level threshold of channel h in chunk c:  tmax · 2^(b - 13) -/
def chThr (X : ShX.Idx → EReal) (c : Fin 16) (h : Fin 4096) : EReal :=
  chunkMax X c * Ideal.exp2 ((((bucket (colMax X c h) (chunkMax X c)).toInt : ℝ) : EReal) - Ideal.ofBits .f32 0x41500000#32)

/-- the quantised activations -/
def Xq (X : ShX.Idx → EReal) : ShX.Idx → EReal :=
  fun i => qd (X i) (step (chThr X (chunkOf (i 0)) (i 1) * inv7))

/-! ## The product -/

/-- entry (t, v): the sum over the hidden channels of activation row t times weight row v -/
def logits (A : ShX.Idx → EReal) (B : ShW.Idx → EReal) : ShL.Idx → EReal :=
  fun i => ∑ k : Fin 4096, A (ix2 (i 0) k) * B (ix2 (i 1) k)

/-- the whole result from the two arguments -/
def G (x0 : ShIn.Idx → EReal) (x1 : ShW.Idx → EReal) : ShOut.Idx → EReal :=
  shapeCast ShOut (logits (Xq (shapeCast ShX x0)) (Wq x1))

end Cert.Quant

end
-- ==== Proof.Weight.lean ====
import proofs.«108861_j8117488190107_1_alg».proof.Proof.Gen.KernelIdeal.Frame
import proofs.«108861_j8117488190107_1_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.WeightValue

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## Layout operations of a column of row values, read at an index -/

/-- a vector of row values cast to a one-column matrix reads, at (i, u), the vector at i -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- a one-column matrix broadcast along its rows reads, at (i, j), the column at (i, 0) -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- the named constant one seventh -/
theorem inv7_named : Named.named (F := Ideal) κ "inv_7" (φ := .f32) 0x3E124925#32 = Cert.Quant.inv7 :=
  IdealRules.named_const.ideal_named_scalar _ _ _ _ rfl

/-- the maximum of the magnitudes along a row of the block -/
theorem rowmax_apply (x : FVec Ideal S256x4096 .f32) (p : Fin 256) :
    multiReduction (F := Ideal) .maximumf [1] S256 (absf x) 0xFF800000#32 reduces_S256x4096_S256 (.inl rfl) rfl (ix1 p)
      = (Finset.univ : Finset (Fin 4096)).fold max Cert.Quant.bot (fun h => Cert.Quant.absE (x (ix2 p h))) := by
  refine (Ideal.multiReduction_maximumf_single (absf x) 0xFF800000#32 reduces_S256x4096_S256 (.inl rfl) rfl (ix1 p)).trans ?_
  show (Finset.univ : Finset (Fin 4096)).fold max Cert.Quant.bot (absf x ∘ reduces_S256x4096_S256.lift (ix1 p)) = _
  refine Finset.fold_congr fun h _ => ?_
  show Cert.Quant.absE (x (reduces_S256x4096_S256.lift (ix1 p) h)) = _
  congr 2
  funext a
  apply Fin.ext
  match a with
  | ⟨0, _⟩ => rfl
  | ⟨1, _⟩ => rfl

/-! ## The body's payload at an index -/

/-- the step of each of the block's rows, as the body holds it: a one-column matrix -/
def stepCol (x : FVec Ideal S256x4096 .f32) : FVec Ideal S256x1 .f32 :=
  maximumf (broadcast S256x1 (Scalar.ofBits .f32 0x3089705F#32))
    (absf (mulf (shapeCast S256x1
        (multiReduction (F := Ideal) .maximumf [1] S256 (absf x) 0xFF800000#32 reduces_S256x4096_S256 (.inl rfl) rfl)
        shapeCasts_S256_S256x1)
      (broadcast S256x1 (Named.named (F := Ideal) κ "inv_7" (φ := .f32) 0x3E124925#32))))

/-- the payload as operations of the block and of its rows' steps -/
theorem pay_unfold (x : FVec Ideal S256x4096 .f32) :
    k0_pay1 (F := Ideal) x
      = truncf .bf16 (mulf (minimumf (broadcast S256x4096 (Scalar.sitofp .f32 7#32))
            (maximumf (broadcast S256x4096 (Scalar.sitofp .f32 4294967288#32))
              (roundeven (divf x (broadcastTo S256x4096 (stepCol x) broadcasts_S256x1_S256x4096)))))
          (broadcastTo S256x4096 (stepCol x) broadcasts_S256x1_S256x4096)) bitsLt_bf16_f32 := rfl

/-- a magnitude, read at an index -/
theorem absf_apply {s : Shape} {φ : FTy} (a : FVec Ideal s φ) (i : s.Idx) : absf a i = Cert.Quant.absE (a i) := rfl

/-- a rounding to the nearest integer, ties to even, read at an index -/
theorem roundeven_apply {s : Shape} {φ : FTy} (a : FVec Ideal s φ) (i : s.Idx) :
    roundeven a i = Ideal.liftRound Ideal.roundHalfEven (a i) := rfl

/-- row p's step is the specification's step of that row's largest magnitude times one seventh -/
theorem stepCol_apply (x : FVec Ideal S256x4096 .f32) (p : Fin 256) :
    stepCol x (ix2 p (0 : Fin 1))
      = Cert.Quant.step ((Finset.univ : Finset (Fin 4096)).fold max Cert.Quant.bot (fun h => Cert.Quant.absE (x (ix2 p h))) * Cert.Quant.inv7) := by
  unfold stepCol
  rw [maximumf_apply, broadcast_apply, absf_apply, mulf_apply, broadcast_apply, shapeCast_a_a1_apply, rowmax_apply, inv7_named,
    Ideal.ofBits_def]
  rfl

/-- the payload at (p, q): the entry quantised against the step of row p's largest magnitude times one seventh -/
theorem pay_apply (x : FVec Ideal S256x4096 .f32) (p : Fin 256) (q : Fin 4096) :
    k0_pay1 (F := Ideal) x (ix2 p q)
      = Cert.Quant.qd (x (ix2 p q)) (Cert.Quant.step ((Finset.univ : Finset (Fin 4096)).fold max Cert.Quant.bot
          (fun h => Cert.Quant.absE (x (ix2 p h))) * Cert.Quant.inv7)) := by
  rw [pay_unfold, truncf_apply, mulf_apply, minimumf_apply, maximumf_apply, broadcast_apply, broadcast_apply, roundeven_apply,
    divf_apply, broadcastTo_a1_ab_apply, stepCol_apply, Ideal.scalar_sitofp_def, Ideal.scalar_sitofp_def]
  rfl

/-! ## From the blocks to the array -/

/-- a whole block is accessed at offset zero on both axes -/
theorem offs_zero : (![0, 0] : Fin 2 → Nat) = fun _ => 0 := funext fun a => by fin_cases a <;> rfl

/-- against a weight W, a block x that holds rows 256·t … 256·t+255 of W has as its payload the same rows of the
    quantised W: row p of the block is row 256·t+p of W, so the two row maxima are taken over the same entries -/
theorem pay_of_rows (W : Cert.Quant.ShW.Idx → EReal) (x : FVec Ideal S256x4096 .f32) (r : Fin 256 → Fin 32000)
    (hx : ∀ (p : Fin 256) (h : Fin 4096), x (ix2 p h) = W (ix2 (r p) h)) (p : Fin 256) (q : Fin 4096) :
    k0_pay1 (F := Ideal) x (ix2 p q) = Cert.Quant.Wq W (ix2 (r p) q) := by
  have hfold : (Finset.univ : Finset (Fin 4096)).fold max Cert.Quant.bot (fun h => Cert.Quant.absE (x (ix2 p h)))
      = (Finset.univ : Finset (Fin 4096)).fold max Cert.Quant.bot (fun h => Cert.Quant.absE (W (ix2 (r p) h))) :=
    Finset.fold_congr fun h _ => congrArg Cert.Quant.absE (hx p h)
  rw [pay_apply, hx p q, hfold]
  rfl

/-- the two index maps over the grid: at point t both windows' block is row block t, column block 0 -/
theorem blockIndex_eq : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- the grid has 125 points -/
theorem point_lt (t : Fin cfg0.N) : t.val < 125 := by
  have h := t.isLt
  have hN : cfg0.N = 125 := N_0
  omega

/-- row 256·t+p of the array, for a point t of the grid and a row p of a block -/
def rowOf (t : Fin cfg0.N) (p : Fin 256) : Fin 32000 :=
  ⟨256 * t.val + p.val, by have := point_lt t; have := p.isLt; omega⟩

/-- entry (p, h) of the input block at point t is entry (256·t+p, h) of the input array -/
theorem inBlock_apply (c : Dev nD) (t : Fin cfg0.N) (p : Fin 256) (h : Fin 4096) :
    (iblk0 (F := Ideal) V c 0 t : FVec Ideal S256x4096 .f32) (ix2 p h)
      = (V c main_arg1 : Cert.Quant.ShW.Idx → EReal) (ix2 (rowOf t p) h) := by
  obtain ⟨e0, e1, -, -⟩ := blockIndex_eq t
  unfold iblk0
  rw [View.read_apply]
  show (V c main_arg1 : Cert.Quant.ShW.Idx → EReal) _ = _
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 4096 + 1 * h.val = h.val; rw [e1]; omega

/-- entry (p, q) of the output block at point t sits at (256·t+p, q) of the output array -/
theorem outBlock_emb (t : Fin cfg0.N) (p : Fin 256) (q : Fin 4096) :
    (((cfg0.win 1).blk t).view.emb (ix2 p q) : Cert.Quant.ShW.Idx) = ix2 (rowOf t p) q := by
  obtain ⟨-, -, e2, e3⟩ := blockIndex_eq t
  funext a
  apply Fin.ext
  match a with
  | ⟨0, _⟩ => show win0_1.index t (0 : Fin 2) * 256 + 1 * p.val = 256 * t.val + p.val; rw [e2]; omega
  | ⟨1, _⟩ => show win0_1.index t (1 : Fin 2) * 4096 + 1 * q.val = q.val; rw [e3]; omega

/-- what point t writes back is block t of the quantised input array -/
theorem writeBack_eq (c : Dev nD) (t : Fin cfg0.N) :
    (dat0 (F := Ideal) V c).flushed 1 t
      = ((cfg0.win 1).blk t).view.read (Elt Ideal) (Cert.Quant.Wq (V c main_arg1)) := by
  show (cfg0.win 1).cut (grid0.coords t) ((dat0 (F := Ideal) V c).after 1 t) = _
  rw [after0_1]
  unfold out0_1
  rw [View.canon_unit_zero offs_zero]
  simp only [View.ld_unit_zero (S := S256x4096) offs_zero]
  funext j
  obtain ⟨p, q, rfl⟩ : ∃ (p : Fin 256) (q : Fin 4096), j = ix2 p q := ⟨j 0, j 1, eq_ix2 (n0 := 256) (n1 := 4096) j⟩
  show k0_pay1 (F := Ideal) (iblk0 (F := Ideal) V c 0 t) (ix2 p q)
    = Cert.Quant.Wq (V c main_arg1) (((cfg0.win 1).blk t).view.emb (ix2 p q))
  rw [outBlock_emb]
  exact pay_of_rows (V c main_arg1) (iblk0 (F := Ideal) V c 0 t) (rowOf t) (fun p h => inBlock_apply V c t p h) p q

/-- an index of the array is in point t's block iff each coordinate is in the block's range on its axis -/
theorem mem_outBlock (t : Fin cfg0.N) (i : S32000x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v1).slice (win0_1.rect t)).set ↔ _
  rw [View.set_slice_whole, Rect.mem_set_unit]
  exact Iff.rfl

/-- every entry of the array is in the block of the point its row divided by 256 names -/
theorem rows_covered (i : S32000x4096.Idx) :
    ∃ t : Fin cfg0.N, (cfg0.win 1).flush t = true ∧ i ∈ ((cfg0.win 1).blk t).view.set := by
  have hi0 : (i 0).val < 32000 := (i 0).isLt
  have hi1 : (i 1).val < 4096 := (i 1).isLt
  have hN : cfg0.N = 125 := N_0
  obtain ⟨t, ht⟩ : ∃ t : Fin cfg0.N, t.val = (i 0).val / 256 := ⟨⟨(i 0).val / 256, by rw [hN]; omega⟩, rfl⟩
  obtain ⟨-, -, e2, e3⟩ := blockIndex_eq t
  refine ⟨t, flush0_1 t, ?_⟩
  rw [mem_outBlock]
  intro a
  match a with
  | ⟨0, _⟩ =>
    show win0_1.index t (0 : Fin 2) * 256 ≤ (i 0).val ∧ (i 0).val < win0_1.index t (0 : Fin 2) * 256 + 256
    rw [e2, ht]; omega
  | ⟨1, _⟩ =>
    show win0_1.index t (1 : Fin 2) * 4096 ≤ (i 1).val ∧ (i 1).val < win0_1.index t (1 : Fin 2) * 4096 + 4096
    rw [e3]; omega

/-- After the first region the quantised-weight array holds the quantised weight of the region's input array. -/
theorem final0 (c : Dev nD) : (dat0 (F := Ideal) V c).arrAt 1 cfg0.N = Cert.Quant.Wq (V c main_arg1) := by
  exact (dat0 (F := Ideal) V c).arrAt_eq_of_cover 1 (Cert.Quant.Wq (V c main_arg1)) (fun t _ => writeBack_eq V c t) rows_covered

end Cert.KernelIdeal.WeightValue

end
-- ==== Proof.Act.lean ====
import proofs.«108861_j8117488190107_1_alg».proof.Proof.Gen.KernelIdeal.Frame
import proofs.«108861_j8117488190107_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Idealize.ShloMosaic.PureOps.Reduce

set_option maxRecDepth 16384

noncomputable section

namespace Cert.KernelIdeal.ActValue

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-!
  The activation quantisation, grid point by grid point. A grid point loads one chunk of 256 token rows by 4096
  channels. Inside the chunk it takes, per channel, the largest magnitude down the 256 rows, and from those the largest
  magnitude of the whole chunk; it counts how many of the thirteen thresholds  tmax · 2^-13 … tmax · 2^-1  the channel's
  maximum strictly exceeds, six of them in one stretch, the seventh against a threshold made apart, six more after it;
  the channel's step is  max(ε, |tmax · 2^(count - 13) · 1/7|),  and every entry of the chunk is divided by its channel's
  step, rounded half to even, clipped to [-8, 7] and multiplied by the step again. Read at an entry this is the
  specification's quantised activation of that entry, the chunk being the one the entry's row lies in; the sixteen
  chunks tile the 4096 rows, so the array the region writes is the specification's array.
-/

/-! ## One chunk of 256 token rows -/

/-- the largest magnitude of channel q inside the chunk x -/
def blkColMax (x : Vec Ideal S256x4096 .f32) (q : Fin 4096) : EReal :=
  (Finset.univ : Finset (Fin 256)).fold max Cert.Quant.bot (fun r => Cert.Quant.absE (x (ix2 r q)))

/-- the largest magnitude inside the chunk x -/
def blkMax (x : Vec Ideal S256x4096 .f32) : EReal :=
  (Finset.univ : Finset (Fin 4096)).fold max Cert.Quant.bot (blkColMax x)

/-- the reduced index (q) with the row r put back is (r, q) -/
theorem lift_rows (q : Fin 4096) (r : Fin 256) :
    reduces_S256x4096_S4096.lift (ix1 q) r = ix2 r q := by
  funext a; apply Fin.ext
  match a with
  | ⟨0, _⟩ => rfl
  | ⟨1, _⟩ => rfl

/-- the reduced index (0) with the channel k put back is (0, k) -/
theorem lift_cols (u : Fin 1) (k : Fin 4096) :
    reduces_S1x4096_S1.lift (ix1 u) k = ix2 u k := by
  funext a; apply Fin.ext
  match a with
  | ⟨0, _⟩ => rfl
  | ⟨1, _⟩ => rfl

/-- the row of column maxima, read at channel q -/
theorem pay3_at (x : Vec Ideal S256x4096 .f32) (u : Fin 1) (q : Fin 4096) :
    k1_pay3 (F := Ideal) x (ix2 u q) = blkColMax x q := by
  unfold k1_pay3 k1_pay2
  refine (shapeCast_a_1a_apply _ _ u q).trans ?_
  refine (Ideal.multiReduction_maximumf_single _ _ _ _ _ (ix1 q)).trans ?_
  unfold blkColMax Cert.Quant.bot
  refine Finset.fold_congr (fun r _ => ?_)
  show Cert.Quant.absE (shapeCast S256x4096 x shapeCasts_S256x4096_S256x4096 (reduces_S256x4096_S4096.lift (ix1 q) r)) = _
  rw [shapeCast_self]
  exact congrArg (fun i => Cert.Quant.absE (x i)) (lift_rows q r)

/-- the chunk maximum, read at its one index -/
theorem pay4_at (x : Vec Ideal S256x4096 .f32) (u v : Fin 1) :
    k1_pay4 (F := Ideal) x (ix2 u v) = blkMax x := by
  unfold k1_pay4
  refine (shapeCast_a_1a_apply _ _ u v).trans ?_
  refine (Ideal.multiReduction_maximumf_single _ _ _ _ _ (ix1 v)).trans ?_
  unfold blkMax Cert.Quant.bot
  refine Finset.fold_congr (fun k _ => ?_)
  rw [Function.comp_apply]
  exact (congrArg (k1_pay3 (F := Ideal) x) (lift_cols v k)).trans (pay3_at x v k)

/-! ## The pointwise operations at an index -/

theorem absf_at {s : Shape} {φ : FTy} (a : FVec Ideal s φ) (i : s.Idx) : absf a i = Cert.Quant.absE (a i) := rfl
theorem exp2_at {s : Shape} {φ : FTy} (a : FVec Ideal s φ) (i : s.Idx) : exp2 a i = Ideal.exp2 (a i) := rfl
theorem roundeven_at {s : Shape} {φ : FTy} (a : FVec Ideal s φ) (i : s.Idx) :
    roundeven a i = Ideal.liftRound Ideal.roundHalfEven (a i) := rfl
theorem addi_at {s : Shape} {w : Nat} (a b : IVec s w) (i : s.Idx) : addi a b i = a i + b i := rfl
theorem sitofp_at {s : Shape} {w : Nat} (a : IVec s w) (i : s.Idx) :
    (sitofp .f32 a : FVec Ideal s .f32) i = (((a i).toInt : ℝ) : EReal) := rfl
theorem word_at (b : BitVec 32) : Scalar.ofBits (F := Ideal) .f32 b = Ideal.ofBits .f32 b := rfl

/-- a [1,1] vector broadcast along the row reads its one entry everywhere -/
theorem bcast_one {α : Type} (v : S1x1.Idx → α) (h : S1x1.Broadcasts S1x4096) (u : Fin 1) (q : Fin 4096) :
    broadcastTo S1x4096 v h (ix2 u q) = v (ix2 (0 : Fin 1) (0 : Fin 1)) := by
  refine broadcastTo_apply v h (ix2 u q) (ix2 (0 : Fin 1) (0 : Fin 1)) fun ax => ?_
  match ax with
  | ⟨0, _⟩ => rfl
  | ⟨1, _⟩ => rfl

/-- the eighth threshold at channel q -/
theorem pay6_at (x : Vec Ideal S256x4096 .f32) (u : Fin 1) (q : Fin 4096) :
    k1_pay6 (F := Ideal) x (ix2 u q) = blkMax x * Ideal.ofBits .f32 0x3C000000#32 := by
  unfold k1_pay6
  refine (bcast_one _ _ u q).trans ?_
  rw [mulf_apply, broadcast_apply, word_at, pay4_at]

/-- one compare-and-add step at channel q: the count grows by the bit of "the column maximum exceeds the chunk
    maximum times the factor" -/
theorem step_at (c3 : FVec Ideal S1x4096 .f32) (c4 : FVec Ideal S1x1 .f32) (w : BitVec 32) (acc : IVec S1x4096 32)
    (u : Fin 1) (q : Fin 4096) :
    addi acc (extui 32 (cmpf .ogt c3 (broadcastTo S1x4096 (mulf c4 (broadcast S1x1 (Scalar.ofBits (F := Ideal) .f32 w))) broadcasts_S1x1_S1x4096)) natLt_1_32) (ix2 u q)
      = acc (ix2 u q) + (Ideal.cmp .ogt (c3 (ix2 u q)) (c4 (ix2 (0 : Fin 1) (0 : Fin 1)) * Ideal.ofBits .f32 w)).setWidth 32 := by
  rw [addi_at, extui_apply, cmpf_apply, Ideal.cmpf_def, bcast_one, mulf_apply, broadcast_apply, word_at]

/-- the first six compare-and-add steps at channel q -/
theorem pay5_at (x : Vec Ideal S256x4096 .f32) (u : Fin 1) (q : Fin 4096) :
    k1_pay5 (F := Ideal) x (ix2 u q) = 0#32 + (Ideal.cmp .ogt (blkColMax x q) (blkMax x * Ideal.ofBits .f32 0x39000000#32)).setWidth 32 + (Ideal.cmp .ogt (blkColMax x q) (blkMax x * Ideal.ofBits .f32 0x39800000#32)).setWidth 32 + (Ideal.cmp .ogt (blkColMax x q) (blkMax x * Ideal.ofBits .f32 0x3A000000#32)).setWidth 32 + (Ideal.cmp .ogt (blkColMax x q) (blkMax x * Ideal.ofBits .f32 0x3A800000#32)).setWidth 32 + (Ideal.cmp .ogt (blkColMax x q) (blkMax x * Ideal.ofBits .f32 0x3B000000#32)).setWidth 32 + (Ideal.cmp .ogt (blkColMax x q) (blkMax x * Ideal.ofBits .f32 0x3B800000#32)).setWidth 32 := by
  unfold k1_pay5
  refine (step_at _ _ _ _ u q).trans ?_
  rw [step_at, step_at, step_at, step_at, step_at, broadcast_apply, pay3_at, pay4_at]

/-- the named seventh denotes one seventh -/
theorem named_inv7 : Named.named (F := Ideal) Cert.KernelIdeal.κ "inv_7" (φ := .f32) 0x3E124925#32 = Cert.Quant.inv7 :=
  IdealRules.named_const.ideal_named_scalar _ _ _ _ rfl

/-- the step of channel q: the count goes on through the eighth threshold and the last six, then the level
    threshold  tmax · 2^(count - 13)  times one seventh, in magnitude, kept at or above ε -/
theorem pay7_at (v4 : FVec Ideal S1x4096 .f32) (v6 : FVec Ideal S1x1 .f32) (v43 : IVec S1x4096 32) (v46 : FVec Ideal S1x4096 .f32)
    (u : Fin 1) (q : Fin 4096) :
    k1_pay7 (F := Ideal) v4 v6 v43 v46 (ix2 u q)
      = Cert.Quant.step (v6 (ix2 (0 : Fin 1) (0 : Fin 1)) * Ideal.exp2 ((((v43 (ix2 u q) + (Ideal.cmp .ogt (v4 (ix2 u q)) (v46 (ix2 u q))).setWidth 32 + (Ideal.cmp .ogt (v4 (ix2 u q)) (v6 (ix2 (0 : Fin 1) (0 : Fin 1)) * Ideal.ofBits .f32 0x3C800000#32)).setWidth 32 + (Ideal.cmp .ogt (v4 (ix2 u q)) (v6 (ix2 (0 : Fin 1) (0 : Fin 1)) * Ideal.ofBits .f32 0x3D000000#32)).setWidth 32 + (Ideal.cmp .ogt (v4 (ix2 u q)) (v6 (ix2 (0 : Fin 1) (0 : Fin 1)) * Ideal.ofBits .f32 0x3D800000#32)).setWidth 32 + (Ideal.cmp .ogt (v4 (ix2 u q)) (v6 (ix2 (0 : Fin 1) (0 : Fin 1)) * Ideal.ofBits .f32 0x3E000000#32)).setWidth 32 + (Ideal.cmp .ogt (v4 (ix2 u q)) (v6 (ix2 (0 : Fin 1) (0 : Fin 1)) * Ideal.ofBits .f32 0x3E800000#32)).setWidth 32 + (Ideal.cmp .ogt (v4 (ix2 u q)) (v6 (ix2 (0 : Fin 1) (0 : Fin 1)) * Ideal.ofBits .f32 0x3F000000#32)).setWidth 32).toInt : ℝ) : EReal) - Ideal.ofBits .f32 0x41500000#32) * Cert.Quant.inv7) := by
  unfold k1_pay7 Cert.Quant.step Cert.Quant.eps
  refine (maximumf_apply _ _ (ix2 u q)).trans ?_
  rw [absf_at, mulf_apply, mulf_apply, exp2_at, subf_apply, sitofp_at]
  rw [step_at, step_at, step_at, step_at, step_at, step_at]
  rw [addi_at, extui_apply, cmpf_apply, Ideal.cmpf_def, bcast_one]
  rw [broadcast_apply, broadcast_apply, broadcast_apply, word_at, word_at, named_inv7]

/-- the step broadcast down the 256 rows -/
theorem pay8_at (v4 : FVec Ideal S1x4096 .f32) (v6 : FVec Ideal S1x1 .f32) (v43 : IVec S1x4096 32) (v46 : FVec Ideal S1x4096 .f32)
    (p : Fin 256) (q : Fin 4096) :
    k1_pay8 (F := Ideal) v4 v6 v43 v46 (ix2 p q) = k1_pay7 (F := Ideal) v4 v6 v43 v46 (ix2 (0 : Fin 1) q) := by
  unfold k1_pay8
  exact broadcastTo_1b_ab_apply _ _ p q

/-- the stored entry: the input quantised against the step it is divided by, scaled back by the step of its channel -/
theorem pay1_at (v1 : FVec Ideal S256x4096 .f32) (v96 : FVec Ideal S1x4096 .f32) (v97 : FVec Ideal S256x4096 .f32)
    (p : Fin 256) (q : Fin 4096) :
    k1_pay1 (F := Ideal) v1 v96 v97 (ix2 p q)
      = min Cert.Quant.hi (max Cert.Quant.lo (Ideal.liftRound Ideal.roundHalfEven (Ideal.div (v1 (ix2 p q)) (v97 (ix2 p q)))))
          * v96 (ix2 (0 : Fin 1) q) := by
  unfold k1_pay1 Cert.Quant.hi Cert.Quant.lo
  refine (truncf_apply (φ := .f32) (ψ := .bf16) _ bitsLt_bf16_f32 (ix2 p q)).trans ?_
  rw [mulf_apply, minimumf_apply, maximumf_apply, broadcast_apply, broadcast_apply, roundeven_at, divf_apply,
    broadcastTo_1b_ab_apply, Ideal.scalar_sitofp_def, Ideal.scalar_sitofp_def]

/-- the copy of the chunk is the chunk -/
theorem pay2_eq (x : Vec Ideal S256x4096 .f32) : k1_pay2 (F := Ideal) x = x := by
  unfold k1_pay2
  exact shapeCast_self _ _

/-- what the body stores, from the chunk it loads -/
abbrev stored (x : Vec Ideal S256x4096 .f32) : FVec Ideal S256x4096 .bf16 :=
  k1_pay1 (F := Ideal) (k1_pay2 x) (k1_pay7 (k1_pay3 x) (k1_pay4 x) (k1_pay5 x) (k1_pay6 x))
    (k1_pay8 (k1_pay3 x) (k1_pay4 x) (k1_pay5 x) (k1_pay6 x))

/-- THE STORED ENTRY (p, q) of a chunk: the chunk's entry quantised against the step of channel q, which is made from
    the chunk maximum, lowered by the power of two that the count of thresholds the channel's maximum exceeds selects. -/
theorem payload_at (x : Vec Ideal S256x4096 .f32) (p : Fin 256) (q : Fin 4096) :
    stored x (ix2 p q)
      = Cert.Quant.qd (x (ix2 p q)) (Cert.Quant.step (blkMax x * Ideal.exp2 ((((Cert.Quant.bucket (blkColMax x q) (blkMax x)).toInt : ℝ) : EReal) - Ideal.ofBits .f32 0x41500000#32) * Cert.Quant.inv7)) := by
  unfold stored
  rw [pay1_at, pay8_at, pay7_at, pay2_eq, pay3_at, pay4_at, pay5_at, pay6_at]
  unfold Cert.Quant.qd Cert.Quant.bucket Cert.Quant.dyWords
  simp only [List.foldl]

/-! ## The blocks a grid point reads and writes -/

theorem zero_offsets : (![0, 0] : Fin 2 → Nat) = fun _ => 0 := funext fun a => by fin_cases a <;> rfl

/-- The two index maps over the 16 grid points: the input block and the output block both sit at the point's own
    row-tile and span all 4096 channels; there are 16 row-tiles. -/
theorem tile_facts : ∀ t : Fin cfg1.N, win1_0.index t (0 : Fin 2) = win1_1.index t (0 : Fin 2)
    ∧ win1_0.index t (1 : Fin 2) = 0
    ∧ win1_1.index t (1 : Fin 2) = 0
    ∧ win1_1.index t (0 : Fin 2) ≤ 15 :=
  (by decide +kernel : ∀ t : Fin grid1.N, _)

/-- Every one of the 16 row-tiles is some grid point's. -/
theorem tile_onto : ∀ (q0 : Fin 16), ∃ t : Fin cfg1.N, win1_1.index t = ![q0.val, 0] :=
  (by decide +kernel : ∀ (q0 : Fin 16), ∃ t : Fin grid1.N, win1_1.index t = ![q0.val, 0])

/-- Entry (p, k) of the input block at a grid point is entry (r, k) of the activation array, r the block's first row
    plus p. -/
theorem xblk_apply (c : Dev nD) (t : Fin cfg1.N) (p : Fin 256) (k : Fin 4096) (r : Fin 4096)
    (hr : r.val = win1_0.index t (0 : Fin 2) * 256 + p.val) (h1 : win1_0.index t (1 : Fin 2) = 0) :
    (iblk1 (F := Ideal) V c 0 t : Vec Ideal S256x4096 .f32) (ix2 p k) = (V c main_v0 : S4096x4096.Idx → EReal) (ix2 r k) := by
  unfold iblk1
  rw [View.read_apply]
  show V c main_v0 _ = V c main_v0 _
  congr 1
  funext a
  apply Fin.ext
  match a with
  | ⟨0, _⟩ => show win1_0.index t (0 : Fin 2) * 256 + 1 * p.val = r.val; omega
  | ⟨1, _⟩ => show win1_0.index t (1 : Fin 2) * 4096 + 1 * k.val = k.val; omega

/-- The largest magnitude of channel q inside a grid point's input block is the specification's column maximum of the
    chunk the block is. -/
theorem blkColMax_eq (c : Dev nD) (t : Fin cfg1.N) (ch : Fin 16) (hch : ch.val = win1_0.index t (0 : Fin 2))
    (h1 : win1_0.index t (1 : Fin 2) = 0) (q : Fin 4096) :
    blkColMax (iblk1 (F := Ideal) V c 0 t) q = Cert.Quant.colMax (V c main_v0) ch q := by
  unfold blkColMax Cert.Quant.colMax
  refine Finset.fold_congr (fun r _ => ?_)
  rw [xblk_apply V c t r q (Cert.Quant.tokOf ch r) (by show ch.val * 256 + r.val = _; rw [hch]) h1]

/-- The largest magnitude inside a grid point's input block is the specification's chunk maximum. -/
theorem blkMax_eq (c : Dev nD) (t : Fin cfg1.N) (ch : Fin 16) (hch : ch.val = win1_0.index t (0 : Fin 2))
    (h1 : win1_0.index t (1 : Fin 2) = 0) :
    blkMax (iblk1 (F := Ideal) V c 0 t) = Cert.Quant.chunkMax (V c main_v0) ch := by
  unfold blkMax Cert.Quant.chunkMax
  exact Finset.fold_congr (fun q _ => blkColMax_eq V c t ch hch h1 q)

/-- the specification's quantised activations at row r, channel q -/
theorem Xq_at (X : Cert.Quant.ShX.Idx → EReal) (r : Fin 4096) (q : Fin 4096) :
    Cert.Quant.Xq X (ix2 r q)
      = Cert.Quant.qd (X (ix2 r q)) (Cert.Quant.step (Cert.Quant.chThr X (Cert.Quant.chunkOf r) q * Cert.Quant.inv7)) := rfl

/-- Entry (p, q) of what a grid point stores is entry (r, q) of the specification's quantised activations, r the
    block's first row plus p. -/
theorem pay_blocks (c : Dev nD) (t : Fin cfg1.N) (p : Fin 256) (q : Fin 4096) (r : Fin 4096)
    (hr : r.val = win1_1.index t (0 : Fin 2) * 256 + p.val) :
    stored (iblk1 (F := Ideal) V c 0 t) (ix2 p q) = Cert.Quant.Xq (V c main_v0) (ix2 r q) := by
  obtain ⟨e0, e1, e2, b0⟩ := tile_facts t
  have hp : p.val < 256 := p.isLt
  have hch : (Cert.Quant.chunkOf r).val = win1_0.index t (0 : Fin 2) := by
    show r.val / 256 = _; omega
  rw [Xq_at, Cert.Quant.chThr, payload_at, blkMax_eq V c t (Cert.Quant.chunkOf r) hch e1,
    blkColMax_eq V c t (Cert.Quant.chunkOf r) hch e1 q, xblk_apply V c t p q r (by omega) e1]

/-- What a grid point writes back is its block of the specification's quantised activations. -/
theorem flushed_eq (c : Dev nD) (t : Fin cfg1.N) :
    (dat1 (F := Ideal) V c).flushed 1 t
      = ((cfg1.win 1).blk t).view.read (Elt Ideal) (Cert.Quant.Xq (V c main_v0)) := by
  show (cfg1.win 1).cut (grid1.coords t) ((dat1 (F := Ideal) V c).after 1 t) = _
  rw [after1_1]
  unfold out1_1
  rw [View.canon_unit_zero zero_offsets]
  simp only [View.ld_unit_zero (S := S256x4096) zero_offsets]
  obtain ⟨-, -, e2, b0⟩ := tile_facts t
  funext j
  have hp : (j 0).val < 256 := (j 0).isLt
  have hq : (j 1).val < 4096 := (j 1).isLt
  show stored (iblk1 (F := Ideal) V c 0 t) ((cfg1.win 1).xinj (grid1.coords t) j)
      = Cert.Quant.Xq (V c main_v0) (((cfg1.win 1).blk t).view.emb j)
  have ej : (cfg1.win 1).xinj (grid1.coords t) j = ix2 (⟨(j 0).val, hp⟩ : Fin 256) (⟨(j 1).val, hq⟩ : Fin 4096) :=
    funext fun a => by match a with | ⟨0, _⟩ => rfl | ⟨1, _⟩ => rfl
  have ei : ((cfg1.win 1).blk t).view.emb j
      = ix2 (⟨win1_1.index t (0 : Fin 2) * 256 + (j 0).val, by omega⟩ : Fin 4096) (⟨(j 1).val, hq⟩ : Fin 4096) :=
    funext fun a => Fin.ext (by
      match a with
      | ⟨0, _⟩ => show win1_1.index t (0 : Fin 2) * 256 + 1 * (j 0).val = win1_1.index t (0 : Fin 2) * 256 + (j 0).val; omega
      | ⟨1, _⟩ => show win1_1.index t (1 : Fin 2) * 4096 + 1 * (j 1).val = (j 1).val; omega)
  rw [ej, ei]
  exact pay_blocks V c t _ _ _ rfl

/-! ## The blocks tile the array -/

/-- An entry of the array is in a grid point's output block iff each coordinate is in the block's range on its axis. -/
theorem mem_blk (t : Fin cfg1.N) (i : S4096x4096.Idx) :
    i ∈ ((cfg1.win 1).blk t).view.set ↔ ∀ a : Fin 2, win1_1.index t a * S256x4096.size a ≤ (i a).val ∧ (i a).val < win1_1.index t a * S256x4096.size a + S256x4096.size a := by
  show i ∈ ((View.whole main_v2).slice (win1_1.rect t)).set ↔ _
  rw [View.set_slice_whole, Rect.mem_set_unit]
  exact Iff.rfl

/-- Row r lies in the output block of the point whose row-tile is r / 256. -/
theorem covered (i : S4096x4096.Idx) :
    ∃ t : Fin cfg1.N, (cfg1.win 1).flush t = true ∧ i ∈ ((cfg1.win 1).blk t).view.set := by
  have hi0 : (i 0).val < 4096 := (i 0).isLt
  have hi1 : (i 1).val < 4096 := (i 1).isLt
  obtain ⟨t, ht⟩ := tile_onto ⟨(i 0).val / 256, by omega⟩
  have q0 : win1_1.index t (0 : Fin 2) = (i 0).val / 256 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 256 ≤ (i 0).val ∧ (i 0).val < win1_1.index t (0 : Fin 2) * 256 + 256; omega
  | ⟨1, _⟩ => show win1_1.index t (1 : Fin 2) * 4096 ≤ (i 1).val ∧ (i 1).val < win1_1.index t (1 : Fin 2) * 4096 + 4096; omega

/-- After the second region the quantised-activation array holds the quantised activations of the region's input array. -/
theorem final1 (c : Dev nD) : (dat1 (F := Ideal) V c).arrAt 1 cfg1.N = Cert.Quant.Xq (V c main_v0) := by
  exact (dat1 (F := Ideal) V c).arrAt_eq_of_cover 1 (Cert.Quant.Xq (V c main_v0)) (fun t _ => flushed_eq V c t) covered

end Cert.KernelIdeal.ActValue

end
-- ==== Proof.Mat.lean ====
import proofs.«108861_j8117488190107_1_alg».proof.Proof.Gen.KernelIdeal.Frame
import proofs.«108861_j8117488190107_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MatValue

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The product at one entry of a block -/

/-- The left factor's row coordinate is the entry's row. -/
theorem lhs_mat_0 (i : S512x1280.Idx) (q : dot_S512x4096_S1280x4096_S512x1280_1_1_0_0_n_n.contr.Idx) :
    (dot_S512x4096_S1280x4096_S512x1280_1_1_0_0_n_n.lhsIdx i q 0).val = (i 0).val := by
  unfold DotDims.lhsIdx
  rw [dif_neg (show ¬(0 : Fin S512x4096.rank) ∈ dot_S512x4096_S1280x4096_S512x1280_1_1_0_0_n_n.lhsBatch by decide), dif_pos (show (0 : Fin S512x4096.rank) ∈ dot_S512x4096_S1280x4096_S512x1280_1_1_0_0_n_n.lhsNonContracting by decide)]
  rfl
/-- The left factor's column coordinate is the summation index. -/
theorem lhs_mat_1 (i : S512x1280.Idx) (q : dot_S512x4096_S1280x4096_S512x1280_1_1_0_0_n_n.contr.Idx) :
    (dot_S512x4096_S1280x4096_S512x1280_1_1_0_0_n_n.lhsIdx i q 1).val = (q ⟨0, by decide⟩).val :=
  dot_S512x4096_S1280x4096_S512x1280_1_1_0_0_n_n.lhsIdx_val_of_single rfl i q
/-- The right factor's row coordinate is the entry's column. -/
theorem rhs_mat_0 (i : S512x1280.Idx) (q : dot_S512x4096_S1280x4096_S512x1280_1_1_0_0_n_n.contr.Idx) :
    (dot_S512x4096_S1280x4096_S512x1280_1_1_0_0_n_n.rhsIdx i q 0).val = (i 1).val := by
  unfold DotDims.rhsIdx
  rw [dif_neg (show ¬(0 : Fin S1280x4096.rank) ∈ dot_S512x4096_S1280x4096_S512x1280_1_1_0_0_n_n.rhsBatch by decide), dif_pos (show (0 : Fin S1280x4096.rank) ∈ dot_S512x4096_S1280x4096_S512x1280_1_1_0_0_n_n.rhsNonContracting by decide)]
  rfl
/-- The right factor's column coordinate is the summation index. -/
theorem rhs_mat_1 (i : S512x1280.Idx) (q : dot_S512x4096_S1280x4096_S512x1280_1_1_0_0_n_n.contr.Idx) :
    (dot_S512x4096_S1280x4096_S512x1280_1_1_0_0_n_n.rhsIdx i q 1).val = (q ⟨0, by decide⟩).val :=
  dot_S512x4096_S1280x4096_S512x1280_1_1_0_0_n_n.rhsIdx_val_of_single rfl i q

/-- Entry (p, q) of the body's product of a 512×4096 block x with a 1280×4096 block w: the sum over the 4096 hidden
    channels of x's row p times w's row q. The accumulator is the zero array. -/
theorem pay_apply (x : Vec Ideal S512x4096 .bf16) (w : Vec Ideal S1280x4096 .bf16) (p : Fin 512) (q : Fin 1280) :
    k2_pay1 (F := Ideal) x w (ix2 p q) = ∑ k : Fin 4096, x (ix2 p k) * w (ix2 q k) := by
  unfold k2_pay1
  simp only [shapeCast_self]
  simp only [matmul]
  rw [Ideal.matmul_constant_zero_apply, ← Equiv.sum_comp (ValueIdx.contrEquiv1 dot_S512x4096_S1280x4096_S512x1280_1_1_0_0_n_n 4096 rfl rfl).symm]
  refine Finset.sum_congr rfl fun k _ => ?_
  have hk := ValueIdx.contrEquiv1_symm_val dot_S512x4096_S1280x4096_S512x1280_1_1_0_0_n_n 4096 rfl rfl k
  have el : dot_S512x4096_S1280x4096_S512x1280_1_1_0_0_n_n.lhsIdx (ix2 p q) ((ValueIdx.contrEquiv1 dot_S512x4096_S1280x4096_S512x1280_1_1_0_0_n_n 4096 rfl rfl).symm k) = ix2 p k := funext fun a => Fin.ext (by
    match a with
    | ⟨0, _⟩ => exact lhs_mat_0 _ _
    | ⟨1, _⟩ => exact (lhs_mat_1 _ _).trans hk)
  have er : dot_S512x4096_S1280x4096_S512x1280_1_1_0_0_n_n.rhsIdx (ix2 p q) ((ValueIdx.contrEquiv1 dot_S512x4096_S1280x4096_S512x1280_1_1_0_0_n_n 4096 rfl rfl).symm k) = ix2 q k := funext fun a => Fin.ext (by
    match a with
    | ⟨0, _⟩ => exact rhs_mat_0 _ _
    | ⟨1, _⟩ => exact (rhs_mat_1 _ _).trans hk)
  rw [el, er]

/-! ## The blocks a grid point reads and writes -/

theorem zero_offsets : (![0, 0] : Fin 2 → Nat) = fun _ => 0 := funext fun a => by fin_cases a <;> rfl

/-- The three index maps over the 25 × 8 grid: the activation block's row-tile is the output block's row-tile, the weight
    block's row-tile is the output block's column-tile, both input blocks span all 4096 hidden channels, and the output's
    tiles stay inside 8 row-tiles by 25 column-tiles. -/
theorem tile_facts : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 7
    ∧ win2_2.index t (1 : Fin 2) ≤ 24 :=
  (by decide +kernel : ∀ t : Fin grid2.N, _)

/-- Every one of the 8 × 25 output tiles is some grid point's. -/
theorem tile_onto : ∀ (q0 : Fin 8) (q1 : Fin 25), ∃ t : Fin cfg2.N, win2_2.index t = ![q0.val, q1.val] :=
  (by decide +kernel : ∀ (q0 : Fin 8) (q1 : Fin 25), ∃ t : Fin grid2.N, win2_2.index t = ![q0.val, q1.val])

/-- The activation array as the region finds it: 4096 token rows by 4096 hidden channels. -/
abbrev actArr (c : Dev nD) : S4096x4096.Idx → EReal := V c main_v2
/-- The weight array as the region finds it: 32000 output channels by 4096 hidden channels. -/
abbrev wgtArr (c : Dev nD) : S32000x4096.Idx → EReal := V c main_v1

/-- Entry (p, k) of the activation block at a grid point is entry (r, k) of the activation array, r the block's first row
    plus p. -/
theorem xblk_apply (c : Dev nD) (t : Fin cfg2.N) (p : Fin 512) (k : Fin 4096) (r : Fin 4096)
    (hr : r.val = win2_0.index t (0 : Fin 2) * 512 + p.val) (h1 : win2_0.index t (1 : Fin 2) = 0) :
    (iblk2 (F := Ideal) V c 0 t : Vec Ideal S512x4096 .bf16) (ix2 p k) = actArr V c (ix2 r k) := by
  unfold iblk2
  rw [View.read_apply]
  show V c main_v2 _ = V c main_v2 _
  congr 1
  funext a
  apply Fin.ext
  match a with
  | ⟨0, _⟩ => show win2_0.index t (0 : Fin 2) * 512 + 1 * p.val = r.val; omega
  | ⟨1, _⟩ => show win2_0.index t (1 : Fin 2) * 4096 + 1 * k.val = k.val; omega

/-- Entry (q, k) of the weight block at a grid point is entry (s, k) of the weight array, s the block's first row plus q. -/
theorem wblk_apply (c : Dev nD) (t : Fin cfg2.N) (q : Fin 1280) (k : Fin 4096) (s : Fin 32000)
    (hs : s.val = win2_1.index t (0 : Fin 2) * 1280 + q.val) (h1 : win2_1.index t (1 : Fin 2) = 0) :
    (iblk2 (F := Ideal) V c 1 t : Vec Ideal S1280x4096 .bf16) (ix2 q k) = wgtArr V c (ix2 s k) := by
  unfold iblk2
  rw [View.read_apply]
  show V c main_v1 _ = V c main_v1 _
  congr 1
  funext a
  apply Fin.ext
  match a with
  | ⟨0, _⟩ => show win2_1.index t (0 : Fin 2) * 1280 + 1 * q.val = s.val; omega
  | ⟨1, _⟩ => show win2_1.index t (1 : Fin 2) * 4096 + 1 * k.val = k.val; omega

/-- Entry (p, q) of the product of a grid point's two input blocks is entry (r, s) of the product of the two arrays, where
    (r, s) is (p, q) moved by the output block's first row and first column. -/
theorem pay_blocks (c : Dev nD) (t : Fin cfg2.N) (p : Fin 512) (q : Fin 1280) (r : Fin 4096) (s : Fin 32000)
    (hr : r.val = win2_2.index t (0 : Fin 2) * 512 + p.val) (hs : s.val = win2_2.index t (1 : Fin 2) * 1280 + q.val) :
    k2_pay1 (F := Ideal) (iblk2 (F := Ideal) V c 0 t) (iblk2 (F := Ideal) V c 1 t) (ix2 p q)
      = Cert.Quant.logits (V c main_v2) (V c main_v1) (ix2 r s) := by
  obtain ⟨e0, e1, e2, e3, -, -⟩ := tile_facts t
  refine (pay_apply (iblk2 (F := Ideal) V c 0 t) (iblk2 (F := Ideal) V c 1 t) p q).trans ?_
  show _ = ∑ k : Fin 4096, actArr V c (ix2 r k) * wgtArr V c (ix2 s k)
  refine Finset.sum_congr rfl fun k _ => ?_
  rw [xblk_apply V c t p k r (by omega) e1, wblk_apply V c t q k s (by omega) e3]

/-- What a grid point writes back is its block of the product of the two arrays. -/
theorem flushed_eq (c : Dev nD) (t : Fin cfg2.N) :
    (dat2 (F := Ideal) V c).flushed 2 t
      = ((cfg2.win 2).blk t).view.read (Elt Ideal) (Cert.Quant.logits (V c main_v2) (V c main_v1)) := by
  show (cfg2.win 2).cut (grid2.coords t) ((dat2 (F := Ideal) V c).after 2 t) = _
  rw [after2_2]
  unfold out2_2
  rw [View.canon_unit_zero zero_offsets]
  simp only [View.ld_unit_zero (S := S512x4096) zero_offsets, View.ld_unit_zero (S := S1280x4096) zero_offsets]
  obtain ⟨-, -, -, -, b0, b1⟩ := tile_facts t
  funext j
  have hp : (j 0).val < 512 := (j 0).isLt
  have hq : (j 1).val < 1280 := (j 1).isLt
  show k2_pay1 (F := Ideal) (iblk2 (F := Ideal) V c 0 t) (iblk2 (F := Ideal) V c 1 t) ((cfg2.win 2).xinj (grid2.coords t) j)
      = Cert.Quant.logits (V c main_v2) (V c main_v1) (((cfg2.win 2).blk t).view.emb j)
  have ej : (cfg2.win 2).xinj (grid2.coords t) j = ix2 (⟨(j 0).val, hp⟩ : Fin 512) (⟨(j 1).val, hq⟩ : Fin 1280) :=
    funext fun a => by match a with | ⟨0, _⟩ => rfl | ⟨1, _⟩ => rfl
  have ei : ((cfg2.win 2).blk t).view.emb j
      = ix2 (⟨win2_2.index t (0 : Fin 2) * 512 + (j 0).val, by omega⟩ : Fin 4096) (⟨win2_2.index t (1 : Fin 2) * 1280 + (j 1).val, by omega⟩ : Fin 32000) :=
    funext fun a => Fin.ext (by
      match a with
      | ⟨0, _⟩ => show win2_2.index t (0 : Fin 2) * 512 + 1 * (j 0).val = win2_2.index t (0 : Fin 2) * 512 + (j 0).val; omega
      | ⟨1, _⟩ => show win2_2.index t (1 : Fin 2) * 1280 + 1 * (j 1).val = win2_2.index t (1 : Fin 2) * 1280 + (j 1).val; omega)
  rw [ej, ei]
  exact pay_blocks V c t _ _ _ _ rfl rfl

/-! ## The blocks tile the array -/

/-- An entry of the array is in a grid point's output block iff each coordinate is in the block's range on its axis. -/
theorem mem_blk (t : Fin cfg2.N) (i : S4096x32000.Idx) :
    i ∈ ((cfg2.win 2).blk t).view.set ↔ ∀ a : Fin 2, win2_2.index t a * S512x1280.size a ≤ (i a).val ∧ (i a).val < win2_2.index t a * S512x1280.size a + S512x1280.size a := by
  show i ∈ ((View.whole main_v3).slice (win2_2.rect t)).set ↔ _
  rw [View.set_slice_whole, Rect.mem_set_unit]
  exact Iff.rfl

/-- Entry (row, col) lies in the output block of the point whose row-tile is row / 512 and column-tile col / 1280. -/
theorem covered (i : S4096x32000.Idx) :
    ∃ t : Fin cfg2.N, (cfg2.win 2).flush t = true ∧ i ∈ ((cfg2.win 2).blk t).view.set := by
  have hi0 : (i 0).val < 4096 := (i 0).isLt
  have hi1 : (i 1).val < 32000 := (i 1).isLt
  obtain ⟨t, ht⟩ := tile_onto ⟨(i 0).val / 512, by omega⟩ ⟨(i 1).val / 1280, by omega⟩
  have q0 : win2_2.index t (0 : Fin 2) = (i 0).val / 512 := congrFun ht 0
  have q1 : win2_2.index t (1 : Fin 2) = (i 1).val / 1280 := congrFun ht 1
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1280 ≤ (i 1).val ∧ (i 1).val < win2_2.index t (1 : Fin 2) * 1280 + 1280; omega

/-- After the third region the logits array holds the product of the region's two input arrays. -/
theorem final2 (c : Dev nD) : (dat2 (F := Ideal) V c).arrAt 2 cfg2.N = Cert.Quant.logits (V c main_v2) (V c main_v1) := by
  exact (dat2 (F := Ideal) V c).arrAt_eq_of_cover 2 (Cert.Quant.logits (V c main_v2) (V c main_v1)) (fun t _ => flushed_eq V c t) covered

end Cert.KernelIdeal.MatValue

end
-- ==== Proof.KernelValue.lean ====
/-
  The result array at the end of the program, traced back to the two arguments.

  The last host step reshapes the logits array. The third region leaves in the logits array the product of
  the quantised-activation array and the quantised-weight array as it finds them; the second region left the
  quantised activations of the flattened input in the first of these, and the first region the quantised
  weight in the second. Nothing in between writes any of these arrays, so each is read at the boundary where
  its region left it.
-/
import proofs.«108861_j8117488190107_1_alg».proof.Proof.Gen.KernelIdeal.Frame
import proofs.«108861_j8117488190107_1_alg».proof.Proof.Spec
import proofs.«108861_j8117488190107_1_alg».proof.Proof.Weight
import proofs.«108861_j8117488190107_1_alg».proof.Proof.Act
import proofs.«108861_j8117488190107_1_alg».proof.Proof.Mat
import Idealize.ShloMosaic.Lib.StableHlo.Run

set_option maxRecDepth 16384

noncomputable section

namespace Cert.KernelIdeal.ResultValue

open Cert.KernelIdeal Cert.KernelIdeal.Gen
open Idealize.ShloMosaic Idealize.ShloMosaic.TcCoe Idealize.ShloMosaic.ValueIdx Idealize.SL.Sem Idealize.ShloMosaic.StableHlo

/-- the activations argument as launched, as a function of its index -/
abbrev x0 (m : (ℓ : Loc nD τ sig) → Buf (Elt Ideal) ℓ) (c : Dev nD) : Cert.Quant.ShIn.Idx → EReal := m ((c : Thread nD τ).loc main_arg0)
/-- the weight argument as launched, as a function of its index -/
abbrev x1 (m : (ℓ : Loc nD τ sig) → Buf (Elt Ideal) ℓ) (c : Dev nD) : Cert.Quant.ShW.Idx → EReal := m ((c : Thread nD τ).loc main_arg1)

variable (m : (ℓ : Loc nD τ sig) → Buf (Elt Ideal) ℓ) (ρ : Dev nD → PrngReg)

/-- The weight argument as the first region finds it: no host step before it writes that array. -/
theorem entry_weight (c : Dev nD) : V1 (F := Ideal) m ρ c main_arg1 = m ((c : Thread nD τ).loc main_arg1) := by
  show StableHlo.after hostOps0 (W0 m ρ c) (Proc.devRef .tc main_arg1) = _
  exact StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The flattened activations as the second region finds them: the first host step's reshape of the input argument;
    the first region does not write that array. -/
theorem entry_act (c : Dev nD) :
    V2 (F := Ideal) m ρ c main_v0 = shapeCast Cert.Quant.ShX (x0 m c) := by
  show W2 m ρ c (Proc.devRef .tc main_v0) = _
  rw [W2_of_ne m ρ c main_v0 (by decide)]
  show StableHlo.after hostOps0 (W0 m ρ c) (Proc.devRef .tc main_v0) = _
  after_results
  rfl

/-- The quantised weight as the third region finds it. -/
theorem entry_wq (c : Dev nD) :
    V3 (F := Ideal) m ρ c main_v1 = Cert.Quant.Wq (x1 m c) := by
  show W3 m ρ c (Proc.devRef .tc main_v1) = _
  rw [W3_of_ne m ρ c main_v1 (by decide)]
  refine (W2_arr m ρ c 1).trans ?_
  rw [Cert.KernelIdeal.WeightValue.final0 (V1 m ρ) c, entry_weight m ρ c]

/-- The quantised activations as the third region finds them. -/
theorem entry_xq (c : Dev nD) :
    V3 (F := Ideal) m ρ c main_v2 = Cert.Quant.Xq (shapeCast Cert.Quant.ShX (x0 m c)) := by
  show W3 m ρ c (Proc.devRef .tc main_v2) = _
  refine (W3_arr m ρ c 1).trans ?_
  rw [Cert.KernelIdeal.ActValue.final1 (V2 m ρ) c, entry_act m ρ c]

/-- The result array at the end: the specification's function of the two arguments. -/
theorem result (c : Dev nD) :
    W5 (F := Ideal) m ρ c (Proc.devRef .tc main_v4)
      = Cert.Quant.G (x0 m c) (x1 m c) := by
  have h3 : W4 (F := Ideal) m ρ c (Proc.devRef .tc main_v3)
      = Cert.Quant.logits (Cert.Quant.Xq (shapeCast Cert.Quant.ShX (x0 m c)))
          (Cert.Quant.Wq (x1 m c)) := by
    refine (W4_arr m ρ c 2).trans ?_
    rw [Cert.KernelIdeal.MatValue.final2 (V3 m ρ) c, entry_xq m ρ c, entry_wq m ρ c]
  show StableHlo.after hostOps3 (W4 m ρ c) (Proc.devRef .tc main_v4) = _
  after_results
  unfold Cert.Quant.G
  rw [← h3]
  rfl

end Cert.KernelIdeal.ResultValue

end
-- ==== Proof.Consts.lean ====
/-
  The float words the two programs spell, as the extended reals they denote: minus infinity, the
  numbers 2, 7 and 13, and the thirteen powers of two 2^-13 … 2^-1. All are stated here, once, so
  that no other module opens the decoding of a word.
-/
import Idealize.ShloMosaic.PureOps.Ideal

noncomputable section

namespace Cert.Consts

open Idealize.ShloMosaic

/-- the word of minus infinity denotes the bottom of the extended reals -/
theorem ofBits_negInf : Ideal.ofBits .f32 0xFF800000#32 = (⊥ : EReal) := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_seven : Ideal.ofBits .f32 0x40E00000#32 = ((7 : ℝ) : EReal) := by
  simp [Ideal.ofBits, Ideal.ieee, -EReal.coe_mul]; norm_num

theorem ofBits_thirteen : Ideal.ofBits .f32 0x41500000#32 = ((13 : ℝ) : EReal) := by
  simp [Ideal.ofBits, Ideal.ieee, -EReal.coe_mul]; norm_num

/-- 2^-13 -/
theorem ofBits_p13 : Ideal.ofBits .f32 0x39000000#32 = ((1 / 8192 : ℝ) : EReal) := by
  simp [Ideal.ofBits, Ideal.ieee, -EReal.coe_mul]; norm_num
/-- 2^-12 -/
theorem ofBits_p12 : Ideal.ofBits .f32 0x39800000#32 = ((1 / 4096 : ℝ) : EReal) := by
  simp [Ideal.ofBits, Ideal.ieee, -EReal.coe_mul]; norm_num
/-- 2^-11 -/
theorem ofBits_p11 : Ideal.ofBits .f32 0x3A000000#32 = ((1 / 2048 : ℝ) : EReal) := by
  simp [Ideal.ofBits, Ideal.ieee, -EReal.coe_mul]; norm_num
/-- 2^-10 -/
theorem ofBits_p10 : Ideal.ofBits .f32 0x3A800000#32 = ((1 / 1024 : ℝ) : EReal) := by
  simp [Ideal.ofBits, Ideal.ieee, -EReal.coe_mul]; norm_num
/-- 2^-9 -/
theorem ofBits_p9 : Ideal.ofBits .f32 0x3B000000#32 = ((1 / 512 : ℝ) : EReal) := by
  simp [Ideal.ofBits, Ideal.ieee, -EReal.coe_mul]; norm_num
/-- 2^-8 -/
theorem ofBits_p8 : Ideal.ofBits .f32 0x3B800000#32 = ((1 / 256 : ℝ) : EReal) := by
  simp [Ideal.ofBits, Ideal.ieee, -EReal.coe_mul]; norm_num
/-- 2^-7 -/
theorem ofBits_p7 : Ideal.ofBits .f32 0x3C000000#32 = ((1 / 128 : ℝ) : EReal) := by
  simp [Ideal.ofBits, Ideal.ieee, -EReal.coe_mul]; norm_num
/-- 2^-6 -/
theorem ofBits_p6 : Ideal.ofBits .f32 0x3C800000#32 = ((1 / 64 : ℝ) : EReal) := by
  simp [Ideal.ofBits, Ideal.ieee, -EReal.coe_mul]; norm_num
/-- 2^-5 -/
theorem ofBits_p5 : Ideal.ofBits .f32 0x3D000000#32 = ((1 / 32 : ℝ) : EReal) := by
  simp [Ideal.ofBits, Ideal.ieee, -EReal.coe_mul]; norm_num
/-- 2^-4 -/
theorem ofBits_p4 : Ideal.ofBits .f32 0x3D800000#32 = ((1 / 16 : ℝ) : EReal) := by
  simp [Ideal.ofBits, Ideal.ieee, -EReal.coe_mul]; norm_num
/-- 2^-3 -/
theorem ofBits_p3 : Ideal.ofBits .f32 0x3E000000#32 = ((1 / 8 : ℝ) : EReal) := by
  simp [Ideal.ofBits, Ideal.ieee, -EReal.coe_mul]; norm_num
/-- 2^-2 -/
theorem ofBits_p2 : Ideal.ofBits .f32 0x3E800000#32 = ((1 / 4 : ℝ) : EReal) := by
  simp [Ideal.ofBits, Ideal.ieee, -EReal.coe_mul]; norm_num
/-- 2^-1 -/
theorem ofBits_p1 : Ideal.ofBits .f32 0x3F000000#32 = ((1 / 2 : ℝ) : EReal) := by
  simp [Ideal.ofBits, Ideal.ieee, -EReal.coe_mul]; norm_num

end Cert.Consts

end
-- ==== Proof.RefLaws.lean ====
/-
  The laws that join the two spellings of the quantisation steps.

  A quotient by a nonzero real is the product with its reciprocal on every extended real; so x / 7 is
  x · 1/7, the threshold tm / 2^(13-k) is tm · 2^-(13-k), and the level tm / 2^(13-b) is tm · 2^(b-13).
  The count of thresholds exceeded is a sum of thirteen zero-or-one words, the same in any order, and is at
  most thirteen. A maximum taken jointly over rows and channels is the maximum over channels of the
  maxima over rows.
-/
import proofs.«108861_j8117488190107_1_alg».proof.Proof.Spec
import proofs.«108861_j8117488190107_1_alg».proof.Proof.Consts
import Idealize.ShloMosaic.PureOps.Ideal
import Idealize.ShloMosaic.PureOps.Reduce
import Mathlib.Data.Finset.Fold
import Mathlib.Data.Fintype.Basic
import Mathlib.Analysis.SpecialFunctions.Pow.Real

noncomputable section

namespace Cert.Quant

open Idealize.ShloMosaic

/-- the word of threshold k: the k-th of the thirteen factors 2^-13 … 2^-1 -/
def dyWord (k : Fin 13) : BitVec 32 := dyWords.getD k.val 0#32

/-- dividing by the word of 7 is multiplying by one seventh, on every extended real -/
theorem div_seven (x : EReal) : Ideal.div x (Ideal.ofBits .f32 0x40E00000#32) = x * inv7 := by
  rw [Cert.Consts.ofBits_seven, Ideal.div_coe (by norm_num : (7 : ℝ) ≠ 0)]
  rfl

/-- for a word b of at most thirteen, the signed reading of 13 - b is the natural number 13 - b -/
private theorem subi_toInt (b : BitVec 32) (hb : b.toNat ≤ 13) :
    (IntOp.subi (13#32 : BitVec 32) b).toInt = ((13 - b.toNat : ℕ) : ℤ) := by
  unfold IntOp.subi
  rw [BitVec.toInt_eq_toNat_cond, BitVec.toNat_sub]
  simp only [BitVec.toNat_ofNat]
  split <;> omega

/-- for a word b of at most thirteen, its signed reading is its natural value -/
private theorem toInt_small (b : BitVec 32) (hb : b.toNat ≤ 13) : b.toInt = (b.toNat : ℤ) := by
  rw [BitVec.toInt_eq_toNat_cond]
  split <;> omega

/-- the quotient by 2^(13-b) is the product with the reciprocal of that power of two -/
private theorem div_pow_two (tm : EReal) (b : BitVec 32) (hb : b.toNat ≤ 13) :
    Ideal.div tm (Ideal.pow (Ideal.ofBits .f32 0x40000000#32)
        ((((IntOp.subi (13#32 : BitVec 32) b).toInt : ℝ) : EReal)))
      = tm * ((1 / (2 : ℝ) ^ (13 - b.toNat) : ℝ) : EReal) := by
  rw [subi_toInt b hb, Cert.Consts.ofBits_two]
  have hp : Ideal.pow ((2 : ℝ) : EReal) (((((13 - b.toNat : ℕ) : ℤ) : ℝ)) : EReal)
      = (((2 : ℝ) ^ (13 - b.toNat) : ℝ) : EReal) := by
    show ((Real.rpow 2 ((((13 - b.toNat : ℕ) : ℤ) : ℝ)) : ℝ) : EReal) = _
    congr 1
    rw [Int.cast_natCast]
    exact Real.rpow_natCast 2 _
  rw [hp, Ideal.div_coe (pow_ne_zero _ (by norm_num : (2 : ℝ) ≠ 0))]

/-- the reciprocal of 2^(13-n) is what the n-th factor's word denotes -/
private theorem thr_word : ∀ (n : ℕ) (hn : n < 13),
    ((1 / (2 : ℝ) ^ (13 - n) : ℝ) : EReal) = Ideal.ofBits .f32 (dyWord ⟨n, hn⟩)
  | 0, _ => by
    rw [show dyWord ⟨0, by omega⟩ = 0x39000000#32 from rfl, Cert.Consts.ofBits_p13]; norm_num
  | 1, _ => by
    rw [show dyWord ⟨1, by omega⟩ = 0x39800000#32 from rfl, Cert.Consts.ofBits_p12]; norm_num
  | 2, _ => by
    rw [show dyWord ⟨2, by omega⟩ = 0x3A000000#32 from rfl, Cert.Consts.ofBits_p11]; norm_num
  | 3, _ => by
    rw [show dyWord ⟨3, by omega⟩ = 0x3A800000#32 from rfl, Cert.Consts.ofBits_p10]; norm_num
  | 4, _ => by
    rw [show dyWord ⟨4, by omega⟩ = 0x3B000000#32 from rfl, Cert.Consts.ofBits_p9]; norm_num
  | 5, _ => by
    rw [show dyWord ⟨5, by omega⟩ = 0x3B800000#32 from rfl, Cert.Consts.ofBits_p8]; norm_num
  | 6, _ => by
    rw [show dyWord ⟨6, by omega⟩ = 0x3C000000#32 from rfl, Cert.Consts.ofBits_p7]; norm_num
  | 7, _ => by
    rw [show dyWord ⟨7, by omega⟩ = 0x3C800000#32 from rfl, Cert.Consts.ofBits_p6]; norm_num
  | 8, _ => by
    rw [show dyWord ⟨8, by omega⟩ = 0x3D000000#32 from rfl, Cert.Consts.ofBits_p5]; norm_num
  | 9, _ => by
    rw [show dyWord ⟨9, by omega⟩ = 0x3D800000#32 from rfl, Cert.Consts.ofBits_p4]; norm_num
  | 10, _ => by
    rw [show dyWord ⟨10, by omega⟩ = 0x3E000000#32 from rfl, Cert.Consts.ofBits_p3]; norm_num
  | 11, _ => by
    rw [show dyWord ⟨11, by omega⟩ = 0x3E800000#32 from rfl, Cert.Consts.ofBits_p2]; norm_num
  | 12, _ => by
    rw [show dyWord ⟨12, by omega⟩ = 0x3F000000#32 from rfl, Cert.Consts.ofBits_p1]; norm_num
  | n + 13, h => absurd h (by omega)

/-- threshold k spelt as a quotient by the power 2^(13-k) is the product with the k-th factor -/
theorem thr_eq (tm : EReal) (k : Fin 13) :
    Ideal.div tm (Ideal.pow (Ideal.ofBits .f32 0x40000000#32)
        ((((IntOp.subi (13#32 : BitVec 32) (BitVec.ofNat 32 k.val)).toInt : ℝ) : EReal)))
      = tm * Ideal.ofBits .f32 (dyWord k) := by
  obtain ⟨n, hn⟩ := k
  have hk : (BitVec.ofNat 32 n).toNat = n := by
    rw [BitVec.toNat_ofNat]; omega
  rw [div_pow_two tm _ (by rw [hk]; omega), hk, thr_word n hn]

/-- for a count b of at most thirteen, tm / 2^(13-b) is tm · 2^(b-13) -/
theorem level_eq (tm : EReal) (b : BitVec 32) (hb : b.toNat ≤ 13) :
    Ideal.div tm (Ideal.pow (Ideal.ofBits .f32 0x40000000#32)
        ((((IntOp.subi (13#32 : BitVec 32) b).toInt : ℝ) : EReal)))
      = tm * Ideal.exp2 (((b.toInt : ℝ) : EReal) - Ideal.ofBits .f32 0x41500000#32) := by
  rw [div_pow_two tm b hb, toInt_small b hb, Cert.Consts.ofBits_thirteen, Int.cast_natCast,
    ← EReal.coe_sub, Ideal.exp2_coe]
  refine congrArg (fun r : ℝ => tm * (r : EReal)) ?_
  -- the exponent b - 13 is the negative of the natural number 13 - b
  have h : ((b.toNat : ℝ) - 13) = -(((13 - b.toNat : ℕ)) : ℝ) := by
    rw [Nat.cast_sub hb]; push_cast; ring
  rw [h]
  show _ = (2 : ℝ) ^ (-(((13 - b.toNat : ℕ)) : ℝ))
  rw [Real.rpow_neg (by norm_num), Real.rpow_natCast, one_div]

/-- a fold of a commutative and associative operation over all of Fin (n+1) is the fold over Fin n joined
    with the last entry -/
private theorem fold_univ_last {β : Type} (op : β → β → β) [hc : Std.Commutative op] [ha : Std.Associative op]
    (b : β) (n : ℕ) (f : Fin (n + 1) → β) :
    (Finset.univ : Finset (Fin (n + 1))).fold op b f
      = op ((Finset.univ : Finset (Fin n)).fold op b (fun i => f i.castSucc)) (f (Fin.last n)) := by
  rw [Fin.univ_castSuccEmb, Finset.fold_cons, Finset.fold_map, hc.comm]
  rfl

/-- the count as a sum over the thirteen thresholds, taken in any order, is the count taken in order -/
theorem bucket_eq_fold (cm tm : EReal) :
    (Finset.univ : Finset (Fin 13)).fold IntOp.addi (0#32 : BitVec 32)
        (fun k => (Ideal.cmp .ogt cm (tm * Ideal.ofBits .f32 (dyWord k))).setWidth 32)
      = bucket cm tm := by
  simp only [fold_univ_last, Finset.univ_eq_empty, Finset.fold_empty]
  rfl

/-- a one-bit word widened to 32 bits is zero or one -/
private theorem setWidth_toNat_le (c : BitVec 1) : (c.setWidth 32).toNat ≤ 1 := by
  rw [BitVec.toNat_setWidth]; have := c.isLt; omega

/-- adding one zero-or-one word per list entry to a count of at most n gives at most n plus the length,
    as long as that stays below 2^32 (no wrap-around) -/
private theorem foldl_count_le (g : BitVec 32 → BitVec 1) : ∀ (l : List (BitVec 32)) (acc : BitVec 32) (n : ℕ),
    acc.toNat ≤ n → n + l.length < 2 ^ 32 →
    (l.foldl (fun a w => a + (g w).setWidth 32) acc).toNat ≤ n + l.length
  | [], acc, n, h, _ => by simpa using h
  | w :: l, acc, n, h, hl => by
    rw [List.foldl_cons]
    have h1 : (acc + (g w).setWidth 32).toNat ≤ n + 1 := by
      rw [BitVec.toNat_add]
      have := setWidth_toNat_le (g w)
      omega
    simp only [List.length_cons] at hl ⊢
    have := foldl_count_le g l _ (n + 1) h1 (by omega)
    omega

/-- the count is at most thirteen -/
theorem bucket_le (cm tm : EReal) : (bucket cm tm).toNat ≤ 13 := by
  have h := foldl_count_le (fun w => Ideal.cmp .ogt cm (tm * Ideal.ofBits .f32 w)) dyWords 0#32 0
    (by simp) (by simp [dyWords])
  have hlen : dyWords.length = 13 := rfl
  rw [hlen, Nat.zero_add] at h
  exact h

/-- a maximum from the bottom over a set that a pair of coordinates (row, channel) enumerates is the maximum over
    the channels of the maxima over the rows -/
theorem fold_max_joint {ι : Type} [DecidableEq ι] (s : Finset ι) (x : ι → EReal) (g : Fin 256 → Fin 4096 → ι)
    (hmem : ∀ r h, g r h ∈ s) (hsurj : ∀ i ∈ s, ∃ r h, g r h = i) :
    s.fold max bot x
      = (Finset.univ : Finset (Fin 4096)).fold max bot
          (fun h => (Finset.univ : Finset (Fin 256)).fold max bot (fun r => x (g r h))) := by
  apply le_antisymm
  · -- every entry of the set sits at some (row, channel), below that channel's maximum
    refine (Finset.fold_max_le _).2 ⟨(Finset.le_fold_max _).2 (Or.inl le_rfl), fun i hi => ?_⟩
    obtain ⟨r, h, rfl⟩ := hsurj i hi
    exact (Finset.le_fold_max _).2 (Or.inr ⟨h, Finset.mem_univ h,
      (Finset.le_fold_max _).2 (Or.inr ⟨r, Finset.mem_univ r, le_rfl⟩)⟩)
  · -- every (row, channel) entry is an entry of the set
    refine (Finset.fold_max_le _).2 ⟨(Finset.le_fold_max _).2 (Or.inl le_rfl), fun h _ => ?_⟩
    refine (Finset.fold_max_le _).2 ⟨(Finset.le_fold_max _).2 (Or.inl le_rfl), fun r _ => ?_⟩
    exact (Finset.le_fold_max _).2 (Or.inr ⟨g r h, hmem r h, le_rfl⟩)

end Cert.Quant

end
-- ==== Proof.RefWeight.lean ====
import proofs.«108861_j8117488190107_1_alg».proof.Proof.Gen.ReferenceIdeal.Read
import proofs.«108861_j8117488190107_1_alg».proof.Proof.Spec
import proofs.«108861_j8117488190107_1_alg».proof.Proof.Consts
import proofs.«108861_j8117488190107_1_alg».proof.Proof.RefLaws
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.RefWeight

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

open Cert.Quant

/-- Dropping axis 1 of the weight's shape leaves its rows: one kept axis, axis 0, of extent 32000. -/
theorem reduces_rows : S32000x4096.Reduces [1] S32000 :=
  ⟨rfl, Nat.one_pos, fun b => match b with | ⟨0, _⟩ => rfl⟩

/-- The index over row `v` with coordinate `k` inserted on the reduced axis is the entry (v, k). -/
theorem lift_row (v : Fin 32000) (k : Fin 4096) : reduces_rows.lift (ix1 v) k = ix2 v k := by
  funext c
  apply Fin.ext
  match c with
  | ⟨0, _⟩ => rfl
  | ⟨1, _⟩ => rfl

/-- A maximum-reduce of a 32000 × 4096 array over axis 1 is, at row `v`, the maximum from the initial value over the
    row's 4096 entries, in any order (max is commutative and associative). -/
theorem reduce_row (x : (⟨S32000x4096, .f32⟩ : BufTy).Contents (Elt Ideal)) (init : (⟨S_, .f32⟩ : BufTy).Contents (Elt Ideal))
    (v : Fin 32000) :
    Host.reduce (FloatOps.maximumf (F := Ideal) (φ := .f32)) x init reducesTo_S32000x4096_S32000_d1 h_S_ (ix1 v)
      = (Finset.univ : Finset (Fin 4096)).fold max (init (Shape.Idx.first h_S_)) (fun k => x (ix2 v k)) := by
  refine (Host.reduce_eq_fold_single (α := Ideal .f32) (s := S32000x4096) (t := S32000) (a := 1) (u := S_)
    (FloatOps.maximumf (F := Ideal) (φ := .f32)) x init
    reducesTo_S32000x4096_S32000_d1 reduces_rows h_S_ (ix1 v)).trans ?_
  exact Finset.fold_congr (fun k _ => congrArg x (lift_row v k))

/-- Stage %1 at row `v`: the maximum from minus infinity over the row's 4096 magnitudes. -/
theorem row_max (x1 : (⟨S32000x4096, .f32⟩ : BufTy).Contents (Elt Ideal)) (v : Fin 32000) :
    val_main_v1 (F := Ideal) x1 (ix1 v) = rowMax x1 v := by
  unfold val_main_v1
  refine (reduce_row (val_main_v0 (F := Ideal) x1) (val_main_cst (F := Ideal)) v).trans ?_
  rw [val_main_cst_apply, Ideal.ofBits_def]
  unfold rowMax bot
  refine Finset.fold_congr (fun k _ => ?_)
  rw [val_main_v0_apply]
  rfl

/-- Stage %6 (the row's step, kept as a column) at row `v`. -/
theorem step_at (x1 : (⟨S32000x4096, .f32⟩ : BufTy).Contents (Elt Ideal)) (v : Fin 32000) :
    val_main_v6 (F := Ideal) x1 (ix2 v (0 : Fin 1)) = step (rowMax x1 v * inv7) := by
  have e2 : idx_main_v2 (ix2 v (0 : Fin 1)) = ix1 v := by
    funext a; match a with | ⟨0, _⟩ => rfl
  rw [val_main_v6_apply, val_main_call0_v1_apply, val_main_call0_v0_apply, val_main_cst_1_apply,
    val_main_v5_apply, val_main_v4_apply, val_main_v2_apply, val_main_v3_apply, val_main_cst_0_apply,
    e2, row_max]
  simp only [Ideal.hostDivf_def, Ideal.ofBits_def]
  rw [div_seven]
  rfl

/-- Stage %12 at the entry (v, h). -/
theorem weight_at (x1 : (⟨S32000x4096, .f32⟩ : BufTy).Contents (Elt Ideal)) (v : Fin 32000) (h : Fin 4096) :
    val_main_v12 (F := Ideal) x1 (ix2 v h) = qd (x1 (ix2 v h)) (step (rowMax x1 v * inv7)) := by
  have e7 : idx_main_v7 (ix2 v h) = ix2 v (0 : Fin 1) := by
    funext a; match a with | ⟨0, _⟩ => rfl | ⟨1, _⟩ => rfl
  have e11 : idx_main_v11 (ix2 v h) = ix2 v (0 : Fin 1) := by
    funext a; match a with | ⟨0, _⟩ => rfl | ⟨1, _⟩ => rfl
  rw [val_main_v12_apply, val_main_v10_apply, val_main_call2_v4_apply, val_main_call2_v3_apply,
    val_main_c_2_apply, val_main_call2_v2_apply, val_main_call2_v1_apply, val_main_call2_v0_apply,
    val_main_c_apply, val_main_v9_apply, val_main_v8_apply, val_main_v7_apply, val_main_v11_apply,
    e7, e11, step_at]
  rfl

/-- The reference's quantised weight (before its transpose) is the specification's, entry by entry. -/
theorem ref_weight (x1 : (⟨S32000x4096, .f32⟩ : BufTy).Contents (Elt Ideal)) :
    val_main_v12 (F := Ideal) x1 = Cert.Quant.Wq x1 := by
  funext i
  obtain ⟨v, h, rfl⟩ : ∃ (v : Fin 32000) (h : Fin 4096), i = ix2 v h := ⟨i 0, i 1, eq_ix2 i⟩
  rw [weight_at]
  rfl

end Cert.ReferenceIdeal.RefWeight

end
-- ==== Proof.RefAct.lean ====
/-
  The reference's chunked quantisation of the activations, read entry by entry.

  The input [2, 2048, 4096] is flattened to 4096 token rows by 4096 channels, padded by nothing, and cut into 16
  chunks of 256 rows: entry (c, r, h) of the chunked array is entry (c·256 + r, h) of the flattened one. A maximum
  over the rows of a chunk gives the column maxima, a joint maximum over rows and channels the chunk maximum; the
  count of the thirteen thresholds a column maximum exceeds is a sum of thirteen zero-or-one words; the level is
  the chunk maximum over 2^(13 - count); the step is the larger of ε and the magnitude of a seventh of the level;
  and each entry is divided by its step, rounded, clipped and multiplied back.
-/
import proofs.«108861_j8117488190107_1_alg».proof.Proof.Gen.ReferenceIdeal.Read
import proofs.«108861_j8117488190107_1_alg».proof.Proof.Spec
import proofs.«108861_j8117488190107_1_alg».proof.Proof.Consts
import proofs.«108861_j8117488190107_1_alg».proof.Proof.RefLaws
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.RefAct

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-- the flattened input: token rows by channels -/
abbrev X (x0 : (⟨S2x2048x4096, .f32⟩ : BufTy).Contents (Elt Ideal)) : Cert.Quant.ShX.Idx → EReal :=
  shapeCast Cert.Quant.ShX x0

theorem X_eq (x0 : (⟨S2x2048x4096, .f32⟩ : BufTy).Contents (Elt Ideal)) : X x0 = val_main_v14 (F := Ideal) x0 := rfl

/-- a pad with no low, high or interior padding returns its operand -/
theorem v15_eq (x0 : (⟨S2x2048x4096, .f32⟩ : BufTy).Contents (Elt Ideal)) :
    val_main_v15 (F := Ideal) x0 = val_main_v14 (F := Ideal) x0 := by
  funext j
  unfold val_main_v15 pad
  rw [dif_pos]
  · exact congrArg (val_main_v14 (F := Ideal) x0) (funext fun a => Fin.ext (by
      match a with
      | ⟨0, _⟩ => simp
      | ⟨1, _⟩ => simp))
  · intro a
    match a with
    | ⟨0, _⟩ => simp; exact ⟨Nat.mod_one _, (j 0).isLt⟩
    | ⟨1, _⟩ => simp; exact ⟨Nat.mod_one _, (j 1).isLt⟩

theorem v16_at (x0 : (⟨S2x2048x4096, .f32⟩ : BufTy).Contents (Elt Ideal)) (c : Fin 16) (r : Fin 256) (h : Fin 4096) :
    val_main_v16 (F := Ideal) x0 (ix3 c r h) = X x0 (ix2 (Cert.Quant.tokOf c r) h) := by
  rw [val_main_v16_apply, v15_eq, X_eq]
  refine congrArg (val_main_v14 (F := Ideal) x0) (funext fun a => Fin.ext ?_)
  match a with
  | ⟨0, _⟩ =>
    show ((c.val * 256 + r.val) * 4096 + h.val) / 4096 = c.val * 256 + r.val
    have := h.isLt; omega
  | ⟨1, _⟩ =>
    show ((c.val * 256 + r.val) * 4096 + h.val) % 4096 = h.val
    have := h.isLt; omega

/-- Dropping axis 1 of the chunked shape leaves (chunk, channel): kept axes 0 and 2, of extents 16 and 4096. -/
theorem reduces_mid : S16x256x4096.Reduces [1] S16x4096 :=
  ⟨rfl, Nat.succ_pos 1, fun b => match b with | ⟨0, _⟩ => rfl | ⟨1, _⟩ => rfl⟩

/-- The index over (c, h) with row k inserted on the reduced axis is (c, k, h). -/
theorem lift_mid (c : Fin 16) (h : Fin 4096) (k : Fin 256) : reduces_mid.lift (ix2 c h) k = ix3 c k h := by
  funext a
  apply Fin.ext
  match a with
  | ⟨0, _⟩ => rfl
  | ⟨1, _⟩ => rfl
  | ⟨2, _⟩ => rfl

/-- A maximum-reduce of a 16 × 256 × 4096 array over axis 1 is, at (c, h), the maximum from the initial value over the
    256 rows of chunk c at channel h, in any order (max is commutative and associative). -/
theorem reduce_mid (x : (⟨S16x256x4096, .f32⟩ : BufTy).Contents (Elt Ideal)) (init : (⟨S_, .f32⟩ : BufTy).Contents (Elt Ideal))
    (c : Fin 16) (h : Fin 4096) :
    Host.reduce (FloatOps.maximumf (F := Ideal) (φ := .f32)) x init reducesTo_S16x256x4096_S16x4096_d1 h_S_ (ix2 c h)
      = (Finset.univ : Finset (Fin 256)).fold max (init (Shape.Idx.first h_S_)) (fun k => x (ix3 c k h)) := by
  refine (Host.reduce_eq_fold_single (α := Ideal .f32) (s := S16x256x4096) (t := S16x4096) (a := 1) (u := S_)
    (FloatOps.maximumf (F := Ideal) (φ := .f32)) x init
    reducesTo_S16x256x4096_S16x4096_d1 reduces_mid h_S_ (ix2 c h)).trans ?_
  exact Finset.fold_congr (fun k _ => congrArg x (lift_mid c h k))

theorem v17_at (x0 : (⟨S2x2048x4096, .f32⟩ : BufTy).Contents (Elt Ideal)) (c : Fin 16) (r : Fin 256) (h : Fin 4096) :
    val_main_v17 (F := Ideal) x0 (ix3 c r h) = Cert.Quant.absE (X x0 (ix2 (Cert.Quant.tokOf c r) h)) := by
  rw [val_main_v17_apply, v16_at]; rfl

/-- Stage %19 at (c, h): the largest magnitude of channel h inside chunk c. -/
theorem v19_at (x0 : (⟨S2x2048x4096, .f32⟩ : BufTy).Contents (Elt Ideal)) (c : Fin 16) (h : Fin 4096) :
    val_main_v19 (F := Ideal) x0 (ix2 c h) = Cert.Quant.colMax (X x0) c h := by
  unfold val_main_v19
  refine (reduce_mid (val_main_v17 (F := Ideal) x0) (val_main_cst_5 (F := Ideal)) c h).trans ?_
  rw [val_main_cst_5_apply, Ideal.ofBits_def]
  unfold Cert.Quant.colMax Cert.Quant.bot
  exact Finset.fold_congr (fun k _ => v17_at x0 c k h)

/-- Dropping axes 1 and 2 of an index (a, r, h) leaves the chunk a. -/
theorem drop_joint (a : Fin 16) (r : Fin 256) (h : Fin 4096) :
    reducesTo_S16x256x4096_S16_d1_2.drop (ix3 a r h) = ix1 a := by
  funext b
  apply Fin.ext
  match b with
  | ⟨0, _⟩ => rfl

/-- Stage %18 at chunk c: the largest magnitude inside the chunk, as the maximum over the channels of the maxima
    over the rows (a joint maximum over rows and channels, taken in any order). -/
theorem v18_at (x0 : (⟨S2x2048x4096, .f32⟩ : BufTy).Contents (Elt Ideal)) (c : Fin 16) :
    val_main_v18 (F := Ideal) x0 (ix1 c) = Cert.Quant.chunkMax (X x0) c := by
  unfold val_main_v18
  refine (Host.reduce_eq_fold (α := Ideal .f32) (s := S16x256x4096) (t := S16) (axes := [1, 2]) (u := S_)
    (FloatOps.maximumf (F := Ideal) (φ := .f32)) (val_main_v17 (F := Ideal) x0) (val_main_cst_4 (F := Ideal))
    reducesTo_S16x256x4096_S16_d1_2 h_S_ (ix1 c)).trans ?_
  rw [val_main_cst_4_apply, Ideal.ofBits_def]
  refine (Cert.Quant.fold_max_joint
    (Finset.univ.filter fun i : S16x256x4096.Idx => reducesTo_S16x256x4096_S16_d1_2.drop i = ix1 c)
    (val_main_v17 (F := Ideal) x0) (fun (r : Fin 256) (h : Fin 4096) => ix3 c r h) ?_ ?_).trans ?_
  · intro r h
    exact Finset.mem_filter.2 ⟨Finset.mem_univ _, drop_joint c r h⟩
  · intro i hi
    obtain ⟨a, r, h, rfl⟩ : ∃ (a : Fin 16) (r : Fin 256) (h : Fin 4096), i = ix3 a r h := ⟨i 0, i 1, i 2, eq_ix3 i⟩
    have e : ix1 a = ix1 c := (drop_joint a r h).symm.trans (Finset.mem_filter.1 hi).2
    have hac : a = c := congrFun e (0 : Fin 1)
    exact ⟨r, h, by rw [hac]⟩
  · unfold Cert.Quant.chunkMax Cert.Quant.colMax
    exact Finset.fold_congr (fun h _ => Finset.fold_congr (fun r _ => v17_at x0 c r h))

/-- Dropping axis 2 of the threshold-comparison shape leaves (chunk, channel). -/
theorem reduces_last : S16x4096x13.Reduces [2] S16x4096 :=
  ⟨rfl, Nat.succ_pos 1, fun b => match b with | ⟨0, _⟩ => rfl | ⟨1, _⟩ => rfl⟩

/-- The index over (c, h) with threshold k inserted on the reduced axis is (c, h, k). -/
theorem lift_last (c : Fin 16) (h : Fin 4096) (k : Fin 13) : reduces_last.lift (ix2 c h) k = ix3 c h k := by
  funext a
  apply Fin.ext
  match a with
  | ⟨0, _⟩ => rfl
  | ⟨1, _⟩ => rfl
  | ⟨2, _⟩ => rfl

/-- An add-reduce of a 16 × 4096 × 13 array of 32-bit words over axis 2 is, at (c, h), the sum from the initial
    word over the thirteen entries, in any order (word addition is commutative and associative). -/
theorem reduce_last (x : (⟨S16x4096x13, .i32⟩ : BufTy).Contents (Elt Ideal)) (init : (⟨S_, .i32⟩ : BufTy).Contents (Elt Ideal))
    (c : Fin 16) (h : Fin 4096) :
    Host.reduce (IntOp.addi (w := 32)) x init reducesTo_S16x4096x13_S16x4096_d2 h_S_ (ix2 c h)
      = (Finset.univ : Finset (Fin 13)).fold (IntOp.addi (w := 32)) (init (Shape.Idx.first h_S_)) (fun k => x (ix3 c h k)) := by
  refine (Host.reduce_eq_fold_single (α := BitVec 32) (s := S16x4096x13) (t := S16x4096) (a := 2) (u := S_)
    (IntOp.addi (w := 32)) x init
    reducesTo_S16x4096x13_S16x4096_d2 reduces_last h_S_ (ix2 c h)).trans ?_
  exact Finset.fold_congr (fun k _ => congrArg x (lift_last c h k))

/-- Stage %34 at (c, h, k): the column maximum, whatever the threshold. -/
theorem v34_at (x0 : (⟨S2x2048x4096, .f32⟩ : BufTy).Contents (Elt Ideal)) (c : Fin 16) (h : Fin 4096) (k : Fin 13) :
    val_main_v34 (F := Ideal) x0 (ix3 c h k) = Cert.Quant.colMax (X x0) c h := by
  have e : idx_main_v32 (idx_main_v34 (ix3 c h k)) = ix2 c h := by
    funext a; match a with | ⟨0, _⟩ => rfl | ⟨1, _⟩ => rfl
  rw [val_main_v34_apply, val_main_v32_apply, e, v19_at]

/-- Stage %29 at (c, k): the chunk maximum, whatever the threshold. -/
theorem v29_at (x0 : (⟨S2x2048x4096, .f32⟩ : BufTy).Contents (Elt Ideal)) (c : Fin 16) (k : Fin 13) :
    val_main_v29 (F := Ideal) x0 (ix2 c k) = Cert.Quant.chunkMax (X x0) c := by
  have e : idx_main_v21 (idx_main_v29 (ix2 c k)) = ix1 c := by
    funext a; match a with | ⟨0, _⟩ => rfl
  rw [val_main_v29_apply, val_main_v21_apply, e, v18_at]

/-- Stage %30 at (c, k): the power 2^(13 - k), spelt with the words of 2 and of 13 - k. -/
theorem v30_at (c : Fin 16) (k : Fin 13) :
    val_main_v30 (F := Ideal) (ix2 c k)
      = Ideal.pow (Ideal.ofBits .f32 0x40000000#32)
          ((((IntOp.subi (13#32 : BitVec 32) (BitVec.ofNat 32 k.val)).toInt : ℝ) : EReal)) := by
  have e : idx_main_v28 (idx_main_v30 (ix2 c k)) = ix1 k := by
    funext a; match a with | ⟨0, _⟩ => rfl
  rw [val_main_v30_apply, val_main_v28_apply, e, val_main_v27_apply, val_main_v26_apply, val_main_cst_7_apply,
    val_main_v25_apply, val_main_v23_apply, val_main_v22_apply, val_main_c_6_apply, val_main_v20_apply]
  rfl

/-- Stage %35 at (c, h, k): threshold k of chunk c, the chunk maximum times the k-th factor. -/
theorem v35_at (x0 : (⟨S2x2048x4096, .f32⟩ : BufTy).Contents (Elt Ideal)) (c : Fin 16) (h : Fin 4096) (k : Fin 13) :
    val_main_v35 (F := Ideal) x0 (ix3 c h k)
      = Cert.Quant.chunkMax (X x0) c * Ideal.ofBits .f32 (Cert.Quant.dyWord k) := by
  have e : idx_main_v33 (idx_main_v35 (ix3 c h k)) = ix2 c k := by
    funext a; match a with | ⟨0, _⟩ => rfl | ⟨1, _⟩ => rfl
  rw [val_main_v35_apply, val_main_v33_apply, e, val_main_v31_apply, v29_at, v30_at]
  exact Cert.Quant.thr_eq _ k

/-- Stage %37 at (c, h, k): the zero-or-one word saying whether the column maximum exceeds threshold k. -/
theorem v37_at (x0 : (⟨S2x2048x4096, .f32⟩ : BufTy).Contents (Elt Ideal)) (c : Fin 16) (h : Fin 4096) (k : Fin 13) :
    val_main_v37 (F := Ideal) x0 (ix3 c h k)
      = (Ideal.cmp .ogt (Cert.Quant.colMax (X x0) c h)
          (Cert.Quant.chunkMax (X x0) c * Ideal.ofBits .f32 (Cert.Quant.dyWord k))).setWidth 32 := by
  rw [val_main_v37_apply, val_main_v36_apply, v34_at, v35_at]
  rfl

/-- Stage %38 at (c, h): the number of thresholds the column maximum exceeds. -/
theorem v38_at (x0 : (⟨S2x2048x4096, .f32⟩ : BufTy).Contents (Elt Ideal)) (c : Fin 16) (h : Fin 4096) :
    val_main_v38 (F := Ideal) x0 (ix2 c h)
      = Cert.Quant.bucket (Cert.Quant.colMax (X x0) c h) (Cert.Quant.chunkMax (X x0) c) := by
  unfold val_main_v38
  refine (reduce_last (val_main_v37 (F := Ideal) x0) (val_main_c_8 (F := Ideal)) c h).trans ?_
  rw [val_main_c_8_apply]
  refine Eq.trans ?_ (Cert.Quant.bucket_eq_fold _ _)
  exact Finset.fold_congr (fun k _ => v37_at x0 c h k)

/-- Stage %46 at (c, h): the chunk maximum, whatever the channel. -/
theorem v46_at (x0 : (⟨S2x2048x4096, .f32⟩ : BufTy).Contents (Elt Ideal)) (c : Fin 16) (h : Fin 4096) :
    val_main_v46 (F := Ideal) x0 (ix2 c h) = Cert.Quant.chunkMax (X x0) c := by
  have e : idx_main_v39 (idx_main_v46 (ix2 c h)) = ix1 c := by
    funext a; match a with | ⟨0, _⟩ => rfl
  rw [val_main_v46_apply, val_main_v39_apply, e, v18_at]

/-- Stage %45 at (c, h): the power 2^(13 - b) for the count b of channel h in chunk c. -/
theorem v45_at (x0 : (⟨S2x2048x4096, .f32⟩ : BufTy).Contents (Elt Ideal)) (c : Fin 16) (h : Fin 4096) :
    val_main_v45 (F := Ideal) x0 (ix2 c h)
      = Ideal.pow (Ideal.ofBits .f32 0x40000000#32)
          ((((IntOp.subi (13#32 : BitVec 32)
              (Cert.Quant.bucket (Cert.Quant.colMax (X x0) c h) (Cert.Quant.chunkMax (X x0) c))).toInt : ℝ) : EReal)) := by
  rw [val_main_v45_apply, val_main_v44_apply, val_main_cst_10_apply, val_main_v43_apply, val_main_v41_apply,
    val_main_v40_apply, val_main_c_9_apply, v38_at]
  rfl

/-- Stage %47 at (c, h): the level threshold, the chunk maximum times 2^(b - 13). -/
theorem v47_at (x0 : (⟨S2x2048x4096, .f32⟩ : BufTy).Contents (Elt Ideal)) (c : Fin 16) (h : Fin 4096) :
    val_main_v47 (F := Ideal) x0 (ix2 c h) = Cert.Quant.chThr (X x0) c h := by
  rw [val_main_v47_apply, v46_at, v45_at]
  exact Cert.Quant.level_eq _ _ (Cert.Quant.bucket_le _ _)

/-- Stage %52 (the step of channel h in chunk c, kept with a unit row axis) at (c, 0, h). -/
theorem v52_at (x0 : (⟨S2x2048x4096, .f32⟩ : BufTy).Contents (Elt Ideal)) (c : Fin 16) (h : Fin 4096) :
    val_main_v52 (F := Ideal) x0 (ix3 c (0 : Fin 1) h)
      = Cert.Quant.step (Cert.Quant.chThr (X x0) c h * Cert.Quant.inv7) := by
  have e : idx_main_v50 (ix3 c (0 : Fin 1) h) = ix2 c h := by
    funext a; match a with | ⟨0, _⟩ => rfl | ⟨1, _⟩ => rfl
  rw [val_main_v52_apply, val_main_call4_v1_apply, val_main_call4_v0_apply, val_main_cst_12_apply,
    val_main_v51_apply, val_main_v50_apply, e, val_main_v49_apply, v47_at, val_main_v48_apply, val_main_cst_11_apply]
  simp only [Ideal.hostDivf_def, Ideal.ofBits_def]
  rw [Cert.Quant.div_seven]
  rfl

/-- The chunk of token row c·256 + r is c. -/
theorem chunkOf_tokOf (c : Fin 16) (r : Fin 256) : Cert.Quant.chunkOf (Cert.Quant.tokOf c r) = c := by
  apply Fin.ext
  show (c.val * 256 + r.val) / 256 = c.val
  have := r.isLt
  omega

/-- The reference's quantised activations, at row r of chunk c and channel h, are the specification's at the
    token row c·256 + r of the flattened input. -/
theorem ref_act (x0 : (⟨S2x2048x4096, .f32⟩ : BufTy).Contents (Elt Ideal)) (c : Fin 16) (r : Fin 256) (h : Fin 4096) :
    val_main_v58 (F := Ideal) x0 (ix3 c r h)
      = Cert.Quant.Xq (shapeCast Cert.Quant.ShX x0) (ix2 (Cert.Quant.tokOf c r) h) := by
  have e53 : idx_main_v53 (ix3 c r h) = ix3 c (0 : Fin 1) h := by
    funext a; match a with | ⟨0, _⟩ => rfl | ⟨1, _⟩ => rfl | ⟨2, _⟩ => rfl
  have e57 : idx_main_v57 (ix3 c r h) = ix3 c (0 : Fin 1) h := by
    funext a; match a with | ⟨0, _⟩ => rfl | ⟨1, _⟩ => rfl | ⟨2, _⟩ => rfl
  rw [val_main_v58_apply, val_main_v56_apply, val_main_call6_v4_apply, val_main_call6_v3_apply, val_main_c_14_apply,
    val_main_call6_v2_apply, val_main_call6_v1_apply, val_main_call6_v0_apply, val_main_c_13_apply,
    val_main_v55_apply, val_main_v54_apply, v16_at, val_main_v53_apply, val_main_v57_apply, e53, e57, v52_at]
  show _ = Cert.Quant.qd (X x0 (ix2 (Cert.Quant.tokOf c r) h))
    (Cert.Quant.step (Cert.Quant.chThr (X x0) (Cert.Quant.chunkOf (Cert.Quant.tokOf c r)) h * Cert.Quant.inv7))
  rw [chunkOf_tokOf]
  rfl

end Cert.ReferenceIdeal.RefAct

end
-- ==== Proof.RefValue.lean ====
/-
  The reference's result is the specification's function of the two arguments.

  Entry (t, v) of the reference's logits sits at chunk t / 256, row t mod 256 of its chunked product; there it is
  the sum over the hidden channels k of the quantised activation at (chunk, row, k) times the transposed quantised
  weight at (k, v), that is the quantised weight at (v, k). The two factors are the specification's quantised
  activations at token row t and quantised weight at row v; the outer reshapes are the specification's own.
-/
import proofs.«108861_j8117488190107_1_alg».proof.Proof.Gen.ReferenceIdeal.Read
import proofs.«108861_j8117488190107_1_alg».proof.Proof.Spec
import proofs.«108861_j8117488190107_1_alg».proof.Proof.RefWeight
import proofs.«108861_j8117488190107_1_alg».proof.Proof.RefAct
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-- the row of token row t inside its chunk -/
def rowIn (t : Fin 4096) : Fin 256 := ⟨t.val % 256, Nat.mod_lt _ (by norm_num)⟩

/-- a token row is row (t mod 256) of chunk (t / 256) -/
theorem tok_split (t : Fin 4096) : Cert.Quant.tokOf (Cert.Quant.chunkOf t) (rowIn t) = t :=
  Fin.ext (by show t.val / 256 * 256 + t.val % 256 = t.val; omega)

/-- entry (t, v) of the flat logits, as coordinates of the chunked product: chunk, row in chunk, output channel -/
theorem idx_flat (t : Fin 4096) (v : Fin 32000) :
    idx_main_v60 (ix2 t v) = ix3 (Cert.Quant.chunkOf t) (rowIn t) v :=
  funext fun a => Fin.ext (by
    have ht : t.val < 4096 := t.isLt
    have hv : v.val < 32000 := v.isLt
    match a with
    | ⟨0, _⟩ => show (t.val * 32000 + v.val) / 8192000 = t.val / 256; omega
    | ⟨1, _⟩ => show (t.val * 32000 + v.val) / 32000 % 256 = t.val % 256; omega
    | ⟨2, _⟩ => show (t.val * 32000 + v.val) % 32000 = v.val; omega)

/-- the left factor's index in the chunked product -/
theorem idx_left (c : Fin 16) (r : Fin 256) (v : Fin 32000) (k : Fin 4096) :
    lidx_main_v59 (ix3 c r v) k = ix3 c r k :=
  funext fun a => Fin.ext (by match a with | ⟨0, _⟩ => rfl | ⟨1, _⟩ => rfl | ⟨2, _⟩ => rfl)

/-- the right factor's index, through the transpose: weight row v, channel k -/
theorem idx_right (c : Fin 16) (r : Fin 256) (v : Fin 32000) (k : Fin 4096) :
    idx_main_v13 (ridx_main_v59 (ix3 c r v) k) = ix2 v k :=
  funext fun a => Fin.ext (by match a with | ⟨0, _⟩ => rfl | ⟨1, _⟩ => rfl)

/-- The reference's flat logits are the product of the specification's quantised activations and quantised weight. -/
theorem logits_eq (x0 : (⟨S2x2048x4096, .f32⟩ : BufTy).Contents (Elt Ideal)) (x1 : (⟨S32000x4096, .f32⟩ : BufTy).Contents (Elt Ideal)) :
    val_main_v60 (F := Ideal) x0 x1
      = Cert.Quant.logits (Cert.Quant.Xq (shapeCast Cert.Quant.ShX x0)) (Cert.Quant.Wq x1) := by
  funext i
  obtain ⟨t, v, rfl⟩ : ∃ (t : Fin 4096) (v : Fin 32000), i = ix2 t v := ⟨i 0, i 1, eq_ix2 i⟩
  rw [val_main_v60_apply, idx_flat, val_main_v59_apply]
  unfold Cert.Quant.logits
  refine Finset.sum_congr rfl fun k _ => ?_
  rw [idx_left, val_main_v13_apply, idx_right, Cert.ReferenceIdeal.RefAct.ref_act, Cert.ReferenceIdeal.RefWeight.ref_weight, tok_split]

/-- The reference's result is the specification's function of the two arguments. -/
theorem ref_eq (x0 : (⟨S2x2048x4096, .f32⟩ : BufTy).Contents (Elt Ideal)) (x1 : (⟨S32000x4096, .f32⟩ : BufTy).Contents (Elt Ideal)) :
    val_main_v61 (F := Ideal) x0 x1 = Cert.Quant.G x0 x1 := by
  unfold val_main_v61 Cert.Quant.G
  rw [logits_eq]

end Cert.ReferenceIdeal.RefValue

end
-- ==== Proof.lean ====
/-
  The certificate's five claims.

  Both programs compute, from the activations x0 and the weight x1, the function G of Proof/Spec.lean: the
  activations quantised chunk by chunk against a 14-level threshold of each channel, the weight quantised row
  by row, and their product over the hidden channels. The word-level program and its idealisation run, fault
  free, to a state with the arguments unchanged (the generated frames); the reference's run is generated; the
  idealisation's ledger names the literal 0.142857149 twice as one seventh; and at the ideal instance the two
  results are G of arguments that agree. The only laws used are that a quotient by a nonzero real is the product
  with its reciprocal on every extended real (x / 7 = x · 1/7, t / 2^n = t · 2^-n) and that a maximum or a count
  does not depend on the order it is taken in; no law here needs the inputs finite.
-/
import proofs.«108861_j8117488190107_1_alg».proof.Defs
import proofs.«108861_j8117488190107_1_alg».proof.Proof.Gen.Kernel
import proofs.«108861_j8117488190107_1_alg».proof.Proof.Gen.Kernel.Frame
import proofs.«108861_j8117488190107_1_alg».proof.Proof.Gen.KernelIdeal
import proofs.«108861_j8117488190107_1_alg».proof.Proof.Gen.KernelIdeal.Frame
import proofs.«108861_j8117488190107_1_alg».proof.Proof.Gen.ReferenceIdeal
import proofs.«108861_j8117488190107_1_alg».proof.Proof.Gen.ReferenceIdeal.Run
import proofs.«108861_j8117488190107_1_alg».proof.Proof.Gen.ReferenceIdeal.Read
import proofs.«108861_j8117488190107_1_alg».proof.Proof.Gen.Pre_finite_inputs
import proofs.«108861_j8117488190107_1_alg».proof.Proof.KernelRun
import proofs.«108861_j8117488190107_1_alg».proof.Proof.KernelValue
import proofs.«108861_j8117488190107_1_alg».proof.Proof.RefValue
import Idealize.ShloMosaic.PureOps.IdealRules
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- the reference has no kernel: its frame is its run with the result dropped -/
theorem frame_ri : Cert.frame_ReferenceIdeal := fun m ρ _ =>
  (θ_run Cert.ReferenceIdeal.defs _ _).mono (fun _ h c => (h c).2) (Cert.ReferenceIdeal.Value.run (F := Ideal) m ρ)

/-- the ledger's two entries: the table gives the name the value one seventh, at both sites -/
theorem preserves : Cert.preserves_Kernel_KernelIdeal :=
  ⟨IdealRules.named_const.statement Cert.KernelIdeal.κ "inv_7" .f32 0x3E124925#32 ((1 / 7 : ℝ) : EReal) rfl,
   IdealRules.named_const.statement Cert.KernelIdeal.κ "inv_7" .f32 0x3E124925#32 ((1 / 7 : ℝ) : EReal) rfl⟩

/-- both programs end with the result array at G of their arguments, and the arguments agree -/
theorem algebraic : Cert.algebraic_KernelIdeal_ReferenceIdeal := by
  intro m ρ m' ρ' _ hagree
  refine ⟨fun c => Cert.Quant.G (Cert.KernelIdeal.ResultValue.x0 m c) (Cert.KernelIdeal.ResultValue.x1 m c), ?_, ?_⟩
  · exact (θ_run Cert.KernelIdeal.defs _ _).mono
      (fun r h c => ⟨(h c).1.trans (Cert.KernelIdeal.ResultValue.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
